-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg8 : FVec F S768 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg5 : FVec F S768x768 .f32) (main_arg6 : FVec F S768 .f32) (main_arg7 : FVec F S768x768 .f32) (main_arg8 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg7
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg8 main_v33

def fn {F : FTy → Type} [FloatOps F] (main_arg0 : FVec F S8x2048x768 .f32) (main_arg1 : FVec F S8x2048x768 .f32) (main_arg2 : IVec S8x2048x2048 1) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_arg7 main_arg8 main_v13 main_v16
-- ==== Kernel.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S1x768 : Shape := ⟨2, ![1, 768]⟩
abbrev S1x256x768 : Shape := ⟨3, ![1, 256, 768]⟩
abbrev S256x768 : Shape := ⟨2, ![256, 768]⟩
abbrev S1x2048x768 : Shape := ⟨3, ![1, 2048, 768]⟩
abbrev S1x256x2048 : Shape := ⟨3, ![1, 256, 2048]⟩
abbrev S2048x768 : Shape := ⟨2, ![2048, 768]⟩
abbrev S256x2048 : Shape := ⟨2, ![256, 2048]⟩

abbrev nBuf : Space → Nat
  | .hbm => 20
  | .vmem => 26
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x2048, .i1⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768x768, .f32⟩
  | .hbm, ⟨11, _⟩ => ⟨S768x768, .f32⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S8x2048x768, .bf16⟩
  | .hbm, ⟨16, _⟩ => ⟨S8x2048x768, .bf16⟩
  | .hbm, ⟨17, _⟩ => ⟨S8x2048x768, .bf16⟩
  | .hbm, ⟨18, _⟩ => ⟨S8x2048x2048, .i32⟩
  | .hbm, ⟨19, _⟩ => ⟨S8x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S768x768, .f32⟩
  | .local _ .vmem, ⟨9, _⟩ => ⟨S1x768, .f32⟩
  | .local _ .vmem, ⟨10, _⟩ => ⟨S1x256x768, .bf16⟩
  | .local _ .vmem, ⟨11, _⟩ => ⟨S1x256x768, .bf16⟩
  | .local _ .vmem, ⟨12, _⟩ => ⟨S1x256x768, .bf16⟩
  | .local _ .vmem, ⟨13, _⟩ => ⟨S1x256x768, .bf16⟩
  | .local _ .vmem, ⟨14, _⟩ => ⟨S1x256x768, .bf16⟩
  | .local _ .vmem, ⟨15, _⟩ => ⟨S1x256x768, .bf16⟩
  | .local _ .vmem, ⟨16, _⟩ => ⟨S1x256x768, .bf16⟩
  | .local _ .vmem, ⟨17, _⟩ => ⟨S1x256x768, .bf16⟩
  | .local _ .vmem, ⟨18, _⟩ => ⟨S1x2048x768, .bf16⟩
  | .local _ .vmem, ⟨19, _⟩ => ⟨S1x2048x768, .bf16⟩
  | .local _ .vmem, ⟨20, _⟩ => ⟨S1x2048x768, .bf16⟩
  | .local _ .vmem, ⟨21, _⟩ => ⟨S1x2048x768, .bf16⟩
  | .local _ .vmem, ⟨22, _⟩ => ⟨S1x256x2048, .i32⟩
  | .local _ .vmem, ⟨23, _⟩ => ⟨S1x256x2048, .i32⟩
  | .local _ .vmem, ⟨24, _⟩ => ⟨S1x256x768, .f32⟩
  | .local _ .vmem, ⟨25, _⟩ => ⟨S1x256x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S768x768_S768x768_1_0 : S768x768.Transposes [1, 0] S768x768
  shapeCasts_S768_S1x768 : S768.ShapeCasts S1x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S256x768_S1x256x768 : S256x768.ShapeCasts S1x256x768
  packedbf16_S1x256x768_S1x256x768_0_0_0 : (Rect.unit (s := S1x256x768) ![0, 0, 0] S1x256x768.size inb_S1x256x768_S1x256x768_0_0_0).PackedRows (EltTy.packing .bf16)
  natLt_1_32 : 1 < 32
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  dot_S256x768_S768x768_S256x768_1_0_0_1_n_n_wf : DotDims.WF S256x768 S768x768 S256x768 [1] [0] [0] [1] [] []
  dot_S256x768_S2048x768_S256x2048_1_1_0_0_n_n_wf : DotDims.WF S256x768 S2048x768 S256x2048 [1] [1] [0] [0] [] []
  dot_S256x2048_S2048x768_S256x768_1_0_0_1_n_n_wf : DotDims.WF S256x2048 S2048x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x2048x768.size a
  hwx0_0 : ∀ i : grid0.Coords, EltTy.bits .f32 = 32 ∨ (Rect.block (s := S8x2048x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S8x2048x768.size a
  hwx0_1 : ∀ i : grid0.Coords, EltTy.bits .f32 = 32 ∨ (Rect.block (s := S8x2048x768) S1x256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .f32 = 32 ∨ (Rect.block (s := S768x768) S768x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .f32 = 32 ∨ (Rect.block (s := S768x768) S768x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x768.size a ≤ S8x2048x768.size a
  hwx0_8 : ∀ i : grid0.Coords, EltTy.bits .bf16 = 32 ∨ (Rect.block (s := S8x2048x768) S1x256x768.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x768.size a ≤ S8x2048x768.size a
  hwx0_9 : ∀ i : grid0.Coords, EltTy.bits .bf16 = 32 ∨ (Rect.block (s := S8x2048x768) S1x256x768.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x768.size a ≤ S8x2048x768.size a
  hwx0_10 : ∀ i : grid0.Coords, EltTy.bits .bf16 = 32 ∨ (Rect.block (s := S8x2048x768) S1x256x768.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S8x2048x768.size a
  hwx1_0 : ∀ i : grid1.Coords, EltTy.bits .bf16 = 32 ∨ (Rect.block (s := S8x2048x768) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S8x2048x768.size a
  hwx1_1 : ∀ i : grid1.Coords, EltTy.bits .bf16 = 32 ∨ (Rect.block (s := S8x2048x768) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S8x2048x768.size a
  hwx1_2 : ∀ i : grid1.Coords, EltTy.bits .bf16 = 32 ∨ (Rect.block (s := S8x2048x768) S1x2048x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S8x2048x2048.size a
  hwx1_3 : ∀ i : grid1.Coords, EltTy.bits .i32 = 32 ∨ (Rect.block (s := S8x2048x2048) S1x256x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x768.size a ≤ S8x2048x768.size a
  hwx1_4 : ∀ i : grid1.Coords, EltTy.bits .f32 = 32 ∨ (Rect.block (s := S8x2048x768) S1x256x768.size (cc1_transform_4 i) (hinb1_4 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf
def dot_S256x2048_S2048x768_S256x768_1_0_0_1_n_n : DotDims S256x2048 S2048x768 S256x768 where
  lhsContracting := [1]
  rhsContracting := [0]
  lhsNonContracting := [0]
  rhsNonContracting := [1]
  lhsBatch := []
  rhsBatch := []
  wf := dot_S256x2048_S2048x768_S256x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S1x256x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S1x256x768.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S1x256x768.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v6_0) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_2) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S1x1x768 : Shape := ⟨3, ![1, 1, 768]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x2048, .i1⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S8x2048x768, .f32⟩
  | .hbm, ⟨10, _⟩ => ⟨S1x1x768, .f32⟩
  | .hbm, ⟨11, _⟩ => ⟨S8x2048x768, .f32⟩
  | .hbm, ⟨12, _⟩ => ⟨S8x2048x768, .f32⟩
  | .hbm, ⟨13, _⟩ => ⟨S8x2048x768, .f32⟩
  | .hbm, ⟨14, _⟩ => ⟨S1x1x768, .f32⟩
  | .hbm, ⟨15, _⟩ => ⟨S8x2048x768, .f32⟩
  | .hbm, ⟨16, _⟩ => ⟨S8x2048x768, .f32⟩
  | .hbm, ⟨17, _⟩ => ⟨S8x2048x768, .f32⟩
  | .hbm, ⟨18, _⟩ => ⟨S1x1x768, .f32⟩
  | .hbm, ⟨19, _⟩ => ⟨S8x2048x768, .f32⟩
  | .hbm, ⟨20, _⟩ => ⟨S8x2048x768, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S_S8x2048x2048 : S_.BroadcastsInDim S8x2048x2048 (![] : Fin 0 → Fin S8x2048x2048.rank)
  dot_S8x2048x768_S768x768_S8x2048x768_2_1_01_0_n_n_wf : DotDims.WF S8x2048x768 S768x768 S8x2048x768 [2] [1] [0, 1] [0] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.Spec.lean ====
/-
  The function both programs compute, over the extended reals, entry by entry.

  For activations of shape [8, 2048, 768], square weights [768, 768] and biases [768]:
    proj x w b (p, l, e)  =  (Σ_d x(p, l, d) · w d e) + b e          (one affine projection; `w d e` is the weight
                                                                      read as "input feature d, output feature e")
    Q = proj queries Wq bq,   V = proj values Wv bv,   K = proj V Wk bk   (the keys are projected from the
                                                                          already projected values)
    score (p, l, j)  =  Σ_d Q(p, l, d) · K(p, j, d)
    gate  (p, l, j)  =  logistic (if mask(p, l, j) then score(p, l, j) else -1e9)
    out   (p, l, e)  =  Σ_j gate(p, l, j) · V(p, j, e)
  No sum is re-associated across an infinity and no product is distributed, so nothing here needs a finite
  input: every equation below is an equation of extended-real terms built the same way on both sides.
-/
import Idealize.ShloMosaic.PureOps.Ideal
import Idealize.ShloMosaic.Lib.ValueIdx

noncomputable section

open scoped BigOperators

namespace Cert.GatedAttention

open Idealize.ShloMosaic Idealize.ShloMosaic.ValueIdx

/-- Activations: batch × position × feature. -/
abbrev Act : Shape := ⟨3, ![8, 2048, 768]⟩
/-- The mask and the scores: batch × query position × key position. -/
abbrev Pair : Shape := ⟨3, ![8, 2048, 2048]⟩

/-- The value a masked-out score is replaced by: the f32 word of -1e9, the same word in both programs. -/
abbrev fill : EReal := Ideal.ofBits .f32 0xCE6E6B28#32

/-- One affine projection at an entry: the features of position `(p, l)` against column `e` of the weight, plus the bias. -/
def projAt (x : Act.Idx → EReal) (w : Fin 768 → Fin 768 → EReal) (b : Fin 768 → EReal)
    (p : Fin 8) (l : Fin 2048) (e : Fin 768) : EReal :=
  (∑ d : Fin 768, x (ix3 p l d) * w d e) + b e

/-- The projected array. -/
def proj (x : Act.Idx → EReal) (w : Fin 768 → Fin 768 → EReal) (b : Fin 768 → EReal) : Act.Idx → EReal :=
  fun i => projAt x w b (i 0) (i 1) (i 2)

theorem proj_ix3 (x : Act.Idx → EReal) (w : Fin 768 → Fin 768 → EReal) (b : Fin 768 → EReal)
    (p : Fin 8) (l : Fin 2048) (e : Fin 768) : proj x w b (ix3 p l e) = projAt x w b p l e := rfl

/-- The score of query position `l` against key position `j` in batch `p`: the dot product of their feature rows. -/
def scoreAt (q k : Act.Idx → EReal) (p : Fin 8) (l j : Fin 2048) : EReal :=
  ∑ d : Fin 768, q (ix3 p l d) * k (ix3 p j d)

/-- The gate: the logistic function of the score where the mask bit is set, of the fill value elsewhere. -/
def gateAt (q k : Act.Idx → EReal) (mask : Pair.Idx → BitVec 1) (p : Fin 8) (l j : Fin 2048) : EReal :=
  Ideal.logistic (Scalar.select (mask (ix3 p l j)) (scoreAt q k p l j) fill)

/-- The context at an entry: the gates of query position `l` against every key position, times the values' column `e`. -/
def contextAt (q k v : Act.Idx → EReal) (mask : Pair.Idx → BitVec 1) (p : Fin 8) (l : Fin 2048) (e : Fin 768) : EReal :=
  ∑ j : Fin 2048, gateAt q k mask p l j * v (ix3 p j e)

/-- The context array. -/
def context (q k v : Act.Idx → EReal) (mask : Pair.Idx → BitVec 1) : Act.Idx → EReal :=
  fun i => contextAt q k v mask (i 0) (i 1) (i 2)

theorem context_ix3 (q k v : Act.Idx → EReal) (mask : Pair.Idx → BitVec 1) (p : Fin 8) (l : Fin 2048) (e : Fin 768) :
    context q k v mask (ix3 p l e) = contextAt q k v mask p l e := rfl

/-- The whole layer as ONE function of its nine arguments (weights as `w d e`, biases as `b e`). -/
def layer (queries values : Act.Idx → EReal) (mask : Pair.Idx → BitVec 1)
    (wq : Fin 768 → Fin 768 → EReal) (bq : Fin 768 → EReal)
    (wk : Fin 768 → Fin 768 → EReal) (bk : Fin 768 → EReal)
    (wv : Fin 768 → Fin 768 → EReal) (bv : Fin 768 → EReal) : Act.Idx → EReal :=
  context (proj queries wq bq) (proj (proj values wv bv) wk bk) (proj values wv bv) mask

/-- A mask bit widened to 32 bits and compared against zero is the bit again. -/
theorem ne_zero_of_widened (b : BitVec 1) : IntOp.cmpi .ne (b.setWidth 32) 0#32 = b := by
  revert b; decide

end Cert.GatedAttention

end
-- ==== Proof.ProjArrays.lean ====
import proofs.«105269_j42880953483476_1_alg».proof.Proof.Gen.KernelIdeal.Frame
import proofs.«105269_j42880953483476_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)

-- The buffer contents the projection kernel's region is entered with.
variable (V : (c : Dev nD) → (b : Ref sig .tc) → Buf (Elt Ideal) ((c : Thread nD τ).loc b))

/-! ## The block product at an entry

The body multiplies a [256, 768] block of activations by a [768, 768] weight, contracting the block's axis 1 with the
weight's axis 0: entry (r, e) of the product is the sum over d of block (r, d) times weight (d, e). The four lemmas
below say which coordinate of which operand each axis of the product's two index maps reads. -/

/-- The left operand's row is the output's row. -/
theorem lhs_row (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
/-- The left operand's column is the contraction position. -/
theorem lhs_col (i : S256x768.Idx) (q : dot_S256x768_S768x768_S256x768_1_0_0_1_n_n.contr.Idx) :
    (dot_S256x768_S768x768_S256x768_1_0_0_1_n_n.lhsIdx i q 1).val = (q ⟨0, by decide⟩).val :=
  dot_S256x768_S768x768_S256x768_1_0_0_1_n_n.lhsIdx_val_of_single rfl i q
/-- The right operand's row is the contraction position. -/
theorem rhs_row (i : S256x768.Idx) (q : dot_S256x768_S768x768_S256x768_1_0_0_1_n_n.contr.Idx) :
    (dot_S256x768_S768x768_S256x768_1_0_0_1_n_n.rhsIdx i q 0).val = (q ⟨0, by decide⟩).val :=
  dot_S256x768_S768x768_S256x768_1_0_0_1_n_n.rhsIdx_val_of_single rfl i q
/-- The right operand's column is the output's column. -/
theorem rhs_col (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- The block product into a zero accumulator, at entry (r, e): the sum over the contracted feature. -/
theorem blockProduct_apply (a : FVec Ideal S256x768 .bf16) (w : FVec Ideal S768x768 .bf16) (r : Fin 256) (e : Fin 768) :
    matmul (F := Ideal) dot_S256x768_S768x768_S256x768_1_0_0_1_n_n none a w (constant (F := Ideal) S256x768 .f32 0x00000000#32) (ix2 r e)
      = ∑ d : Fin 768, a (ix2 r d) * w (ix2 d e) := by
  simp only [matmul]
  rw [Ideal.matmul_constant_zero_apply, ← Equiv.sum_comp (contrEquiv1 dot_S256x768_S768x768_S256x768_1_0_0_1_n_n 768 rfl rfl).symm]
  refine Finset.sum_congr rfl fun k _ => ?_
  have hk := contrEquiv1_symm_val dot_S256x768_S768x768_S256x768_1_0_0_1_n_n 768 rfl rfl k
  have el : dot_S256x768_S768x768_S256x768_1_0_0_1_n_n.lhsIdx (ix2 r e) ((contrEquiv1 dot_S256x768_S768x768_S256x768_1_0_0_1_n_n 768 rfl rfl).symm k) = ix2 r k := funext fun a => Fin.ext (by
    match a with
    | ⟨0, _⟩ => exact lhs_row _ _
    | ⟨1, _⟩ => exact (lhs_col _ _).trans hk)
  have er : dot_S256x768_S768x768_S256x768_1_0_0_1_n_n.rhsIdx (ix2 r e) ((contrEquiv1 dot_S256x768_S768x768_S256x768_1_0_0_1_n_n 768 rfl rfl).symm k) = ix2 k e := funext fun a => Fin.ext (by
    match a with
    | ⟨0, _⟩ => exact (rhs_row _ _).trans hk
    | ⟨1, _⟩ => exact rhs_col _ _)
  rw [el, er]

/-! ## One affine projection of a block

The body flattens the [1, 256, 768] block of activations to [256, 768], multiplies it by the [768, 768] weight block
(the format changes are the identity on extended reals), adds the [1, 768] bias row to every row and stores the result
back as a [1, 256, 768] block. Entry (r, e) of the projected block is therefore the sum over d of block (0, r, d) times
weight (d, e), plus bias (0, e). -/

/-- Narrowing the format is the identity on extended reals. -/
theorem narrow_apply {s : Shape} (a : FVec Ideal s .f32) (i : s.Idx) :
    (truncf .bf16 a bitsLt_bf16_f32 : FVec Ideal s .bf16) i = a i := rfl

/-- The flat projected block at entry (r, e). -/
theorem affine_apply (x : Vec Ideal S1x256x768 .f32) (w : Vec Ideal S768x768 .f32) (b : Vec Ideal S1x768 .f32)
    (r : Fin 256) (e : Fin 768) :
    k0_pay4 (F := Ideal) x w b (ix2 r e)
      = (∑ d : Fin 768, x (ix3 (0 : Fin 1) r d) * w (ix2 d e)) + b (ix2 (0 : Fin 1) e) := by
  unfold k0_pay4
  refine (addf_apply _ _ _).trans ?_
  refine congrArg₂ (· + ·) ?_ ?_
  · refine (blockProduct_apply _ _ r e).trans ?_
    refine Finset.sum_congr rfl fun d _ => ?_
    refine congrArg₂ (· * ·) ?_ ?_
    · exact (narrow_apply _ _).trans (shapeCast_1ab_ab_apply x _ r d)
    · exact (narrow_apply _ _).trans (congrFun (shapeCast_self w _) _)
  · refine (broadcastTo_1b_ab_apply _ _ r e).trans ?_
    exact congrFun (shapeCast_self b _) _

/-- The query branch computes the same flat block, then narrows its format. -/
theorem query_flat_eq (x : Vec Ideal S1x256x768 .f32) (w : Vec Ideal S768x768 .f32) (b : Vec Ideal S1x768 .f32) :
    k0_pay6 (F := Ideal) x w b = truncf .bf16 (k0_pay4 (F := Ideal) x w b) bitsLt_bf16_f32 := rfl

/-- The query block stored at (0, r, e). -/
theorem query_block_apply (x : Vec Ideal S1x256x768 .f32) (w : Vec Ideal S768x768 .f32) (b : Vec Ideal S1x768 .f32)
    (r : Fin 256) (e : Fin 768) :
    k0_pay1 (F := Ideal) (k0_pay6 x w b) (ix3 (0 : Fin 1) r e)
      = (∑ d : Fin 768, x (ix3 (0 : Fin 1) r d) * w (ix2 d e)) + b (ix2 (0 : Fin 1) e) := by
  unfold k0_pay1
  refine (shapeCast_ab_1ab_apply _ _ (0 : Fin 1) r e).trans ?_
  rw [query_flat_eq]
  exact (narrow_apply _ _).trans (affine_apply x w b r e)

/-- The value block stored at (0, r, e). -/
theorem value_block_apply (x : Vec Ideal S1x256x768 .f32) (w : Vec Ideal S768x768 .f32) (b : Vec Ideal S1x768 .f32)
    (r : Fin 256) (e : Fin 768) :
    k0_pay2 (F := Ideal) (k0_pay4 x w b) (ix3 (0 : Fin 1) r e)
      = (∑ d : Fin 768, x (ix3 (0 : Fin 1) r d) * w (ix2 d e)) + b (ix2 (0 : Fin 1) e) := by
  unfold k0_pay2
  refine (shapeCast_ab_1ab_apply _ _ (0 : Fin 1) r e).trans ?_
  exact (narrow_apply _ _).trans (affine_apply x w b r e)

/-- The flat key block at entry (r, e): the flat value block of the same rows, projected once more. -/
theorem key_flat_apply (x : Vec Ideal S1x256x768 .f32) (wv wk : Vec Ideal S768x768 .f32) (bv bk : Vec Ideal S1x768 .f32)
    (r : Fin 256) (e : Fin 768) :
    k0_pay5 (F := Ideal) x wv wk bv bk (ix2 r e)
      = (∑ d : Fin 768, k0_pay4 (F := Ideal) x wv bv (ix2 r d) * wk (ix2 d e)) + bk (ix2 (0 : Fin 1) e) := by
  unfold k0_pay5
  refine (addf_apply _ _ _).trans ?_
  refine congrArg₂ (· + ·) ?_ ?_
  · refine (blockProduct_apply _ _ r e).trans ?_
    refine Finset.sum_congr rfl fun d _ => ?_
    refine congrArg₂ (· * ·) ?_ ?_
    · exact narrow_apply _ _
    · exact (narrow_apply _ _).trans (congrFun (shapeCast_self wk _) _)
  · refine (broadcastTo_1b_ab_apply _ _ r e).trans ?_
    exact congrFun (shapeCast_self bk _) _

/-- The key block stored at (0, r, e). -/
theorem key_block_apply (x : Vec Ideal S1x256x768 .f32) (wv wk : Vec Ideal S768x768 .f32) (bv bk : Vec Ideal S1x768 .f32)
    (r : Fin 256) (e : Fin 768) :
    k0_pay3 (F := Ideal) (k0_pay5 x wv wk bv bk) (ix3 (0 : Fin 1) r e)
      = (∑ d : Fin 768, ((∑ d' : Fin 768, x (ix3 (0 : Fin 1) r d') * wv (ix2 d' d)) + bv (ix2 (0 : Fin 1) d)) * wk (ix2 d e))
          + bk (ix2 (0 : Fin 1) e) := by
  unfold k0_pay3
  refine (shapeCast_ab_1ab_apply _ _ (0 : Fin 1) r e).trans ?_
  refine (narrow_apply _ _).trans ?_
  refine (key_flat_apply x wv wk bv bk r e).trans ?_
  refine congrArg₂ (· + ·) (Finset.sum_congr rfl fun d _ => ?_) rfl
  exact congrArg (· * wk (ix2 d e)) (affine_apply x wv bv r d)

/-! ## Where the blocks sit

The grid is 8 × 8: point t is batch t / 8 and row tile t % 8. Each activation window (the two inputs and the three
outputs) takes the [1, 256, 768] block at block index (t / 8, t % 8, 0); each weight and each bias window is its whole
array at every point. -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices of the activation windows, decided over the grid. -/
theorem act_index : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_8.index t (0 : Fin 3) = t.val / 8 ∧ win0_8.index t (1 : Fin 3) = t.val % 8 ∧ win0_8.index t (2 : Fin 3) = 0)
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0) :=
  (by decide +kernel : ∀ t : Fin grid0.N, _)

/-- The block indices of the weight and bias windows, decided over the grid: all zero. -/
theorem par_index : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## A projected block is a block of the projected array

If the activation block x is rows r0 · 256 … r0 · 256 + 255 of batch q of the array X, the block the body stores is
the same rows of the projection of X: entry (0, r, e) of the stored block and entry (q, r0 · 256 + r, e) of the
projected array are the same sum of the same products plus the same bias. -/

/-- The stored query block against the projected array. -/
theorem query_block_is_proj (X : S8x2048x768.Idx → EReal) (W : S768x768.Idx → EReal) (B : S1x768.Idx → EReal)
    (x : Vec Ideal S1x256x768 .f32) (q r0 : Nat)
    (hx : ∀ (r : Fin 256) (d : Fin 768) (p : Fin 8) (l : Fin 2048), p.val = q → l.val = r0 * 256 + r.val →
      x (ix3 (0 : Fin 1) r d) = X (ix3 p l d))
    (y : S1x256x768.Idx) (i : S8x2048x768.Idx)
    (h0 : (i 0).val = q) (h1 : (i 1).val = r0 * 256 + (y 1).val) (h2 : (i 2).val = (y 2).val) :
    k0_pay1 (F := Ideal) (k0_pay6 x W B) y
      = GatedAttention.proj X (fun d e => W (ix2 d e)) (fun e => B (ix2 (0 : Fin 1) e)) i := by
  obtain ⟨u, r, e, rfl⟩ : ∃ (u : Fin 1) (r : Fin 256) (e : Fin 768), y = ix3 u r e := ⟨y 0, y 1, y 2, eq_ix3 y⟩
  obtain ⟨p, l, e', rfl⟩ : ∃ (p : Fin 8) (l : Fin 2048) (e' : Fin 768), i = ix3 p l e' := ⟨i 0, i 1, i 2, eq_ix3 i⟩
  obtain rfl : e = e' := (Fin.ext h2).symm
  obtain rfl : u = 0 := Fin.ext (by have := u.isLt; omega)
  rw [GatedAttention.proj_ix3]
  unfold GatedAttention.projAt
  refine (query_block_apply x W B r e).trans ?_
  refine congrArg₂ (· + ·) (Finset.sum_congr rfl fun d _ => ?_) rfl
  exact congrArg (· * W (ix2 d e)) (hx r d p l h0 h1)

/-- The stored value block against the projected array. -/
theorem value_block_is_proj (X : S8x2048x768.Idx → EReal) (W : S768x768.Idx → EReal) (B : S1x768.Idx → EReal)
    (x : Vec Ideal S1x256x768 .f32) (q r0 : Nat)
    (hx : ∀ (r : Fin 256) (d : Fin 768) (p : Fin 8) (l : Fin 2048), p.val = q → l.val = r0 * 256 + r.val →
      x (ix3 (0 : Fin 1) r d) = X (ix3 p l d))
    (y : S1x256x768.Idx) (i : S8x2048x768.Idx)
    (h0 : (i 0).val = q) (h1 : (i 1).val = r0 * 256 + (y 1).val) (h2 : (i 2).val = (y 2).val) :
    k0_pay2 (F := Ideal) (k0_pay4 x W B) y
      = GatedAttention.proj X (fun d e => W (ix2 d e)) (fun e => B (ix2 (0 : Fin 1) e)) i := by
  obtain ⟨u, r, e, rfl⟩ : ∃ (u : Fin 1) (r : Fin 256) (e : Fin 768), y = ix3 u r e := ⟨y 0, y 1, y 2, eq_ix3 y⟩
  obtain ⟨p, l, e', rfl⟩ : ∃ (p : Fin 8) (l : Fin 2048) (e' : Fin 768), i = ix3 p l e' := ⟨i 0, i 1, i 2, eq_ix3 i⟩
  obtain rfl : e = e' := (Fin.ext h2).symm
  obtain rfl : u = 0 := Fin.ext (by have := u.isLt; omega)
  rw [GatedAttention.proj_ix3]
  unfold GatedAttention.projAt
  refine (value_block_apply x W B r e).trans ?_
  refine congrArg₂ (· + ·) (Finset.sum_congr rfl fun d _ => ?_) rfl
  exact congrArg (· * W (ix2 d e)) (hx r d p l h0 h1)

/-- The stored key block against the projection of the projected array: the inner sums are the value projection's
    entries of the same row, read by the previous argument feature by feature. -/
theorem key_block_is_proj (X : S8x2048x768.Idx → EReal) (Wv Wk : S768x768.Idx → EReal) (Bv Bk : S1x768.Idx → EReal)
    (x : Vec Ideal S1x256x768 .f32) (q r0 : Nat)
    (hx : ∀ (r : Fin 256) (d : Fin 768) (p : Fin 8) (l : Fin 2048), p.val = q → l.val = r0 * 256 + r.val →
      x (ix3 (0 : Fin 1) r d) = X (ix3 p l d))
    (y : S1x256x768.Idx) (i : S8x2048x768.Idx)
    (h0 : (i 0).val = q) (h1 : (i 1).val = r0 * 256 + (y 1).val) (h2 : (i 2).val = (y 2).val) :
    k0_pay3 (F := Ideal) (k0_pay5 x Wv Wk Bv Bk) y
      = GatedAttention.proj (GatedAttention.proj X (fun d e => Wv (ix2 d e)) (fun e => Bv (ix2 (0 : Fin 1) e)))
          (fun d e => Wk (ix2 d e)) (fun e => Bk (ix2 (0 : Fin 1) e)) i := by
  obtain ⟨u, r, e, rfl⟩ : ∃ (u : Fin 1) (r : Fin 256) (e : Fin 768), y = ix3 u r e := ⟨y 0, y 1, y 2, eq_ix3 y⟩
  obtain ⟨p, l, e', rfl⟩ : ∃ (p : Fin 8) (l : Fin 2048) (e' : Fin 768), i = ix3 p l e' := ⟨i 0, i 1, i 2, eq_ix3 i⟩
  obtain rfl : e = e' := (Fin.ext h2).symm
  obtain rfl : u = 0 := Fin.ext (by have := u.isLt; omega)
  rw [GatedAttention.proj_ix3]
  unfold GatedAttention.projAt
  refine (key_block_apply x Wv Wk Bv Bk r e).trans ?_
  refine congrArg₂ (· + ·) (Finset.sum_congr rfl fun d _ => ?_) rfl
  refine congrArg (· * Wk (ix2 d e)) ?_
  refine Eq.trans ?_ (GatedAttention.proj_ix3 X _ _ p l d).symm
  unfold GatedAttention.projAt
  refine congrArg₂ (· + ·) (Finset.sum_congr rfl fun d' _ => ?_) rfl
  exact congrArg (· * Wv (ix2 d' d)) (hx r d' p l h0 h1)

/-! ## The input blocks, read off the arrays

Row r of the activation block at point t is row (t % 8) · 256 + r of batch t / 8; a weight or bias block is its array. -/

/-- The queries' block at point t, entry (0, r, d), is the queries at (t / 8, (t % 8) · 256 + r, d). -/
theorem queries_block (c : Dev nD) (t : Fin cfg0.N) (r : Fin 256) (d : Fin 768) (p : Fin 8) (l : Fin 2048)
    (hp : p.val = t.val / 8) (hl : l.val = t.val % 8 * 256 + r.val) :
    (iblk0 V c 0 t : Vec Ideal S1x256x768 .f32) (ix3 (0 : Fin 1) r d)
      = (V c main_arg0 : S8x2048x768.Idx → EReal) (ix3 p l d) := by
  obtain ⟨e0, e1, e2⟩ := (act_index t).1
  unfold iblk0
  rw [View.read_apply]
  show V c main_arg0 _ = V c main_arg0 _
  congr 1
  funext a
  apply Fin.ext
  match a with
  | ⟨0, _⟩ => show win0_0.index t (0 : Fin 3) * 1 + 1 * 0 = p.val; omega
  | ⟨1, _⟩ => show win0_0.index t (1 : Fin 3) * 256 + 1 * r.val = l.val; omega
  | ⟨2, _⟩ => show win0_0.index t (2 : Fin 3) * 768 + 1 * d.val = d.val; omega

/-- The values' block at point t, entry (0, r, d), is the values at (t / 8, (t % 8) · 256 + r, d). -/
theorem values_block (c : Dev nD) (t : Fin cfg0.N) (r : Fin 256) (d : Fin 768) (p : Fin 8) (l : Fin 2048)
    (hp : p.val = t.val / 8) (hl : l.val = t.val % 8 * 256 + r.val) :
    (iblk0 V c 1 t : Vec Ideal S1x256x768 .f32) (ix3 (0 : Fin 1) r d)
      = (V c main_arg1 : S8x2048x768.Idx → EReal) (ix3 p l d) := by
  obtain ⟨e0, e1, e2⟩ := (act_index t).2.1
  unfold iblk0
  rw [View.read_apply]
  show V c main_arg1 _ = V c main_arg1 _
  congr 1
  funext a
  apply Fin.ext
  match a with
  | ⟨0, _⟩ => show win0_1.index t (0 : Fin 3) * 1 + 1 * 0 = p.val; omega
  | ⟨1, _⟩ => show win0_1.index t (1 : Fin 3) * 256 + 1 * r.val = l.val; omega
  | ⟨2, _⟩ => show win0_1.index t (2 : Fin 3) * 768 + 1 * d.val = d.val; omega

/-- The query weight's block is the whole weight. -/
theorem wq_block (c : Dev nD) (t : Fin cfg0.N) :
    (iblk0 V c 2 t : Vec Ideal S768x768 .f32) = (V c main_v0 : S768x768.Idx → EReal) := by
  obtain ⟨e0, e1⟩ := (par_index t).1
  funext y
  unfold iblk0
  rw [View.read_apply]
  show V c main_v0 _ = V c main_v0 y
  congr 1
  funext a
  apply Fin.ext
  match a with
  | ⟨0, _⟩ => show win0_2.index t (0 : Fin 2) * 768 + 1 * (y 0).val = (y 0).val; omega
  | ⟨1, _⟩ => show win0_2.index t (1 : Fin 2) * 768 + 1 * (y 1).val = (y 1).val; omega

/-- The query bias's block is the whole bias row. -/
theorem bq_block (c : Dev nD) (t : Fin cfg0.N) :
    (iblk0 V c 3 t : Vec Ideal S1x768 .f32) = (V c main_v3 : S1x768.Idx → EReal) := by
  obtain ⟨e0, e1⟩ := (par_index t).2.1
  funext y
  unfold iblk0
  rw [View.read_apply]
  show V c main_v3 _ = V c main_v3 y
  congr 1
  funext a
  apply Fin.ext
  match a with
  | ⟨0, _⟩ => show win0_3.index t (0 : Fin 2) * 1 + 1 * (y 0).val = (y 0).val; omega
  | ⟨1, _⟩ => show win0_3.index t (1 : Fin 2) * 768 + 1 * (y 1).val = (y 1).val; omega

/-- The key weight's block is the whole weight. -/
theorem wk_block (c : Dev nD) (t : Fin cfg0.N) :
    (iblk0 V c 4 t : Vec Ideal S768x768 .f32) = (V c main_v1 : S768x768.Idx → EReal) := by
  obtain ⟨e0, e1⟩ := (par_index t).2.2.1
  funext y
  unfold iblk0
  rw [View.read_apply]
  show V c main_v1 _ = V c main_v1 y
  congr 1
  funext a
  apply Fin.ext
  match a with
  | ⟨0, _⟩ => show win0_4.index t (0 : Fin 2) * 768 + 1 * (y 0).val = (y 0).val; omega
  | ⟨1, _⟩ => show win0_4.index t (1 : Fin 2) * 768 + 1 * (y 1).val = (y 1).val; omega

/-- The key bias's block is the whole bias row. -/
theorem bk_block (c : Dev nD) (t : Fin cfg0.N) :
    (iblk0 V c 5 t : Vec Ideal S1x768 .f32) = (V c main_v4 : S1x768.Idx → EReal) := by
  obtain ⟨e0, e1⟩ := (par_index t).2.2.2.1
  funext y
  unfold iblk0
  rw [View.read_apply]
  show V c main_v4 _ = V c main_v4 y
  congr 1
  funext a
  apply Fin.ext
  match a with
  | ⟨0, _⟩ => show win0_5.index t (0 : Fin 2) * 1 + 1 * (y 0).val = (y 0).val; omega
  | ⟨1, _⟩ => show win0_5.index t (1 : Fin 2) * 768 + 1 * (y 1).val = (y 1).val; omega

/-- The value weight's block is the whole weight. -/
theorem wv_block (c : Dev nD) (t : Fin cfg0.N) :
    (iblk0 V c 6 t : Vec Ideal S768x768 .f32) = (V c main_v2 : S768x768.Idx → EReal) := by
  obtain ⟨e0, e1⟩ := (par_index t).2.2.2.2.1
  funext y
  unfold iblk0
  rw [View.read_apply]
  show V c main_v2 _ = V c main_v2 y
  congr 1
  funext a
  apply Fin.ext
  match a with
  | ⟨0, _⟩ => show win0_6.index t (0 : Fin 2) * 768 + 1 * (y 0).val = (y 0).val; omega
  | ⟨1, _⟩ => show win0_6.index t (1 : Fin 2) * 768 + 1 * (y 1).val = (y 1).val; omega

/-- The value bias's block is the whole bias row. -/
theorem bv_block (c : Dev nD) (t : Fin cfg0.N) :
    (iblk0 V c 7 t : Vec Ideal S1x768 .f32) = (V c main_v5 : S1x768.Idx → EReal) := by
  obtain ⟨e0, e1⟩ := (par_index t).2.2.2.2.2
  funext y
  unfold iblk0
  rw [View.read_apply]
  show V c main_v5 _ = V c main_v5 y
  congr 1
  funext a
  apply Fin.ext
  match a with
  | ⟨0, _⟩ => show win0_7.index t (0 : Fin 2) * 1 + 1 * (y 0).val = (y 0).val; omega
  | ⟨1, _⟩ => show win0_7.index t (1 : Fin 2) * 768 + 1 * (y 1).val = (y 1).val; omega

/-! ## The query projection's array -/

/-- What point t writes back to the query array is block t of the projected array. -/
theorem query_flushed (c : Dev nD) (t : Fin cfg0.N) :
    (dat0 (F := Ideal) V c).flushed 8 t
      = ((cfg0.win 8).blk t).view.read (Elt Ideal)
          (GatedAttention.proj (V c main_arg0) (fun d e => V c main_v0 (ix2 d e)) (fun e => V c main_v3 (ix2 (0 : Fin 1) e))) := by
  show (cfg0.win 8).cut (grid0.coords t) ((dat0 V c).after 8 t) = _
  rw [after0_8]
  unfold out0_8
  rw [View.canon_unit_zero zeros3]
  simp only [View.ld_unit_zero (S := S1x256x768) zeros3, View.ld_unit_zero (S := S768x768) zeros2, View.ld_unit_zero (S := S1x768) zeros2]
  rw [wq_block V c t, bq_block V c t]
  obtain ⟨e0, e1, e2⟩ := (act_index t).2.2.1
  funext j
  have hj0 : (j 0).val < 1 := (j 0).isLt
  have hj1 : (j 1).val < 256 := (j 1).isLt
  have hj2 : (j 2).val < 768 := (j 2).isLt
  exact query_block_is_proj (V c main_arg0) (V c main_v0) (V c main_v3) (iblk0 V c 0 t) (t.val / 8) (t.val % 8)
    (fun r d p l hp hl => queries_block V c t r d p l hp hl)
    ((cfg0.win 8).xinj (grid0.coords t) j) (((cfg0.win 8).blk t).view.emb j)
    (by show win0_8.index t (0 : Fin 3) * 1 + 1 * (j 0).val = t.val / 8; omega)
    (by show win0_8.index t (1 : Fin 3) * 256 + 1 * (j 1).val = t.val % 8 * 256 + (j 1).val; omega)
    (by show win0_8.index t (2 : Fin 3) * 768 + 1 * (j 2).val = (j 2).val; omega)

/-- An entry of the query array is in point t's block iff each coordinate is in the block's range on its axis. -/
theorem mem_query_block (t : Fin cfg0.N) (i : S8x2048x768.Idx) :
    i ∈ ((cfg0.win 8).blk t).view.set ↔ ∀ a : Fin 3, win0_8.index t a * S1x256x768.size a ≤ (i a).val
      ∧ (i a).val < win0_8.index t a * S1x256x768.size a + S1x256x768.size a := by
  show i ∈ ((View.whole main_v6_0).slice (win0_8.rect t)).set ↔ _
  rw [View.set_slice_whole, Rect.mem_set_unit]
  exact Iff.rfl

/-- Every entry (p, l, e) of the query array is in the block of point p · 8 + l / 256. -/
theorem query_cover (i : S8x2048x768.Idx) :
    ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 768 := (i 2).isLt
  obtain ⟨t, ht⟩ : ∃ t : Fin cfg0.N, t.val = (i 0).val * 8 + (i 1).val / 256 :=
    ⟨⟨(i 0).val * 8 + (i 1).val / 256, Nat.lt_of_lt_of_eq (by omega : (i 0).val * 8 + (i 1).val / 256 < 64) N_0.symm⟩, rfl⟩
  obtain ⟨e0, e1, e2⟩ := (act_index t).2.2.1
  refine ⟨t, flush0_8 t, ?_⟩
  rw [mem_query_block]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 768 ≤ (i 2).val ∧ (i 2).val < win0_8.index t (2 : Fin 3) * 768 + 768; omega

/-- The query projection's array after the region. -/
theorem q_array (c : Dev nD) :
    (dat0 (F := Ideal) V c).arrAt 8 cfg0.N
      = GatedAttention.proj (V c main_arg0) (fun d e => V c main_v0 (ix2 d e)) (fun e => V c main_v3 (ix2 (0 : Fin 1) e)) := by
  exact (dat0 (F := Ideal) V c).arrAt_eq_of_cover 8 _ (fun t _ => query_flushed V c t) query_cover

/-! ## The value projection's array -/

/-- What point t writes back to the value array is block t of the projected array. -/
theorem value_flushed (c : Dev nD) (t : Fin cfg0.N) :
    (dat0 (F := Ideal) V c).flushed 9 t
      = ((cfg0.win 9).blk t).view.read (Elt Ideal)
          (GatedAttention.proj (V c main_arg1) (fun d e => V c main_v2 (ix2 d e)) (fun e => V c main_v5 (ix2 (0 : Fin 1) e))) := by
  show (cfg0.win 9).cut (grid0.coords t) ((dat0 V c).after 9 t) = _
  rw [after0_9]
  unfold out0_9
  rw [View.canon_unit_zero zeros3]
  simp only [View.ld_unit_zero (S := S1x256x768) zeros3, View.ld_unit_zero (S := S768x768) zeros2, View.ld_unit_zero (S := S1x768) zeros2]
  rw [wv_block V c t, bv_block V c t]
  obtain ⟨e0, e1, e2⟩ := (act_index t).2.2.2.1
  funext j
  have hj0 : (j 0).val < 1 := (j 0).isLt
  have hj1 : (j 1).val < 256 := (j 1).isLt
  have hj2 : (j 2).val < 768 := (j 2).isLt
  exact value_block_is_proj (V c main_arg1) (V c main_v2) (V c main_v5) (iblk0 V c 1 t) (t.val / 8) (t.val % 8)
    (fun r d p l hp hl => values_block V c t r d p l hp hl)
    ((cfg0.win 9).xinj (grid0.coords t) j) (((cfg0.win 9).blk t).view.emb j)
    (by show win0_9.index t (0 : Fin 3) * 1 + 1 * (j 0).val = t.val / 8; omega)
    (by show win0_9.index t (1 : Fin 3) * 256 + 1 * (j 1).val = t.val % 8 * 256 + (j 1).val; omega)
    (by show win0_9.index t (2 : Fin 3) * 768 + 1 * (j 2).val = (j 2).val; omega)

/-- An entry of the value array is in point t's block iff each coordinate is in the block's range on its axis. -/
theorem mem_value_block (t : Fin cfg0.N) (i : S8x2048x768.Idx) :
    i ∈ ((cfg0.win 9).blk t).view.set ↔ ∀ a : Fin 3, win0_9.index t a * S1x256x768.size a ≤ (i a).val
      ∧ (i a).val < win0_9.index t a * S1x256x768.size a + S1x256x768.size a := by
  show i ∈ ((View.whole main_v6_1).slice (win0_9.rect t)).set ↔ _
  rw [View.set_slice_whole, Rect.mem_set_unit]
  exact Iff.rfl

/-- Every entry (p, l, e) of the value array is in the block of point p · 8 + l / 256. -/
theorem value_cover (i : S8x2048x768.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 768 := (i 2).isLt
  obtain ⟨t, ht⟩ : ∃ t : Fin cfg0.N, t.val = (i 0).val * 8 + (i 1).val / 256 :=
    ⟨⟨(i 0).val * 8 + (i 1).val / 256, Nat.lt_of_lt_of_eq (by omega : (i 0).val * 8 + (i 1).val / 256 < 64) N_0.symm⟩, rfl⟩
  obtain ⟨e0, e1, e2⟩ := (act_index t).2.2.2.1
  refine ⟨t, flush0_9 t, ?_⟩
  rw [mem_value_block]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 768 ≤ (i 2).val ∧ (i 2).val < win0_9.index t (2 : Fin 3) * 768 + 768; omega

/-- The value projection's array after the region. -/
theorem v_array (c : Dev nD) :
    (dat0 (F := Ideal) V c).arrAt 9 cfg0.N
      = GatedAttention.proj (V c main_arg1) (fun d e => V c main_v2 (ix2 d e)) (fun e => V c main_v5 (ix2 (0 : Fin 1) e)) := by
  exact (dat0 (F := Ideal) V c).arrAt_eq_of_cover 9 _ (fun t _ => value_flushed V c t) value_cover

/-! ## The key projection's array -/

/-- What point t writes back to the key array is block t of the projected array. -/
theorem key_flushed (c : Dev nD) (t : Fin cfg0.N) :
    (dat0 (F := Ideal) V c).flushed 10 t
      = ((cfg0.win 10).blk t).view.read (Elt Ideal)
          (GatedAttention.proj (GatedAttention.proj (V c main_arg1) (fun d e => V c main_v2 (ix2 d e)) (fun e => V c main_v5 (ix2 (0 : Fin 1) e)))
          (fun d e => V c main_v1 (ix2 d e)) (fun e => V c main_v4 (ix2 (0 : Fin 1) e))) := by
  show (cfg0.win 10).cut (grid0.coords t) ((dat0 V c).after 10 t) = _
  rw [after0_10]
  unfold out0_10
  rw [View.canon_unit_zero zeros3]
  simp only [View.ld_unit_zero (S := S1x256x768) zeros3, View.ld_unit_zero (S := S768x768) zeros2, View.ld_unit_zero (S := S1x768) zeros2]
  rw [wv_block V c t, wk_block V c t, bv_block V c t, bk_block V c t]
  obtain ⟨e0, e1, e2⟩ := (act_index t).2.2.2.2
  funext j
  have hj0 : (j 0).val < 1 := (j 0).isLt
  have hj1 : (j 1).val < 256 := (j 1).isLt
  have hj2 : (j 2).val < 768 := (j 2).isLt
  exact key_block_is_proj (V c main_arg1) (V c main_v2) (V c main_v1) (V c main_v5) (V c main_v4) (iblk0 V c 1 t) (t.val / 8) (t.val % 8)
    (fun r d p l hp hl => values_block V c t r d p l hp hl)
    ((cfg0.win 10).xinj (grid0.coords t) j) (((cfg0.win 10).blk t).view.emb j)
    (by show win0_10.index t (0 : Fin 3) * 1 + 1 * (j 0).val = t.val / 8; omega)
    (by show win0_10.index t (1 : Fin 3) * 256 + 1 * (j 1).val = t.val % 8 * 256 + (j 1).val; omega)
    (by show win0_10.index t (2 : Fin 3) * 768 + 1 * (j 2).val = (j 2).val; omega)

/-- An entry of the key array is in point t's block iff each coordinate is in the block's range on its axis. -/
theorem mem_key_block (t : Fin cfg0.N) (i : S8x2048x768.Idx) :
    i ∈ ((cfg0.win 10).blk t).view.set ↔ ∀ a : Fin 3, win0_10.index t a * S1x256x768.size a ≤ (i a).val
      ∧ (i a).val < win0_10.index t a * S1x256x768.size a + S1x256x768.size a := by
  show i ∈ ((View.whole main_v6_2).slice (win0_10.rect t)).set ↔ _
  rw [View.set_slice_whole, Rect.mem_set_unit]
  exact Iff.rfl

/-- Every entry (p, l, e) of the key array is in the block of point p · 8 + l / 256. -/
theorem key_cover (i : S8x2048x768.Idx) :
    ∃ t : Fin cfg0.N, (cfg0.win 10).flush t = true ∧ i ∈ ((cfg0.win 10).blk t).view.set := by
  have hi0 : (i 0).val < 8 := (i 0).isLt
  have hi1 : (i 1).val < 2048 := (i 1).isLt
  have hi2 : (i 2).val < 768 := (i 2).isLt
  obtain ⟨t, ht⟩ : ∃ t : Fin cfg0.N, t.val = (i 0).val * 8 + (i 1).val / 256 :=
    ⟨⟨(i 0).val * 8 + (i 1).val / 256, Nat.lt_of_lt_of_eq (by omega : (i 0).val * 8 + (i 1).val / 256 < 64) N_0.symm⟩, rfl⟩
  obtain ⟨e0, e1, e2⟩ := (act_index t).2.2.2.2
  refine ⟨t, flush0_10 t, ?_⟩
  rw [mem_key_block]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 768 ≤ (i 2).val ∧ (i 2).val < win0_10.index t (2 : Fin 3) * 768 + 768; omega

/-- The key projection's array after the region: the projection of the projected values. -/
theorem k_array (c : Dev nD) :
    (dat0 (F := Ideal) V c).arrAt 10 cfg0.N
      = GatedAttention.proj (GatedAttention.proj (V c main_arg1) (fun d e => V c main_v2 (ix2 d e)) (fun e => V c main_v5 (ix2 (0 : Fin 1) e)))
          (fun d e => V c main_v1 (ix2 d e)) (fun e => V c main_v4 (ix2 (0 : Fin 1) e)) := by
  exact (dat0 (F := Ideal) V c).arrAt_eq_of_cover 10 _ (fun t _ => key_flushed V c t) key_cover

end Cert.KernelIdeal.Proj

end
-- ==== Proof.ContextArray.lean ====
import proofs.«105269_j42880953483476_1_alg».proof.Proof.Gen.KernelIdeal.Frame
import proofs.«105269_j42880953483476_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Attn

open Cert.KernelIdeal Cert.KernelIdeal.Gen Idealize.ShloMosaic Idealize.ShloMosaic.TcCoe Idealize.SL.Sem
open Idealize.ShloMosaic.ValueIdx
open Idealize.ShloMosaic.Pipeline (Dat)

-- The buffer contents the attention kernel's region is entered with.
variable (V : (c : Dev nD) → (b : Ref sig .tc) → Buf (Elt Ideal) ((c : Thread nD τ).loc b))

/-! ## The two products of the kernel body, read at an entry

The score product contracts the feature axis of both operands (queries by keys, both stored position by feature); the
context product contracts the key-position axis (gates by values). Each is a sum over its one contraction coordinate. -/

/-- The score product's left operand index keeps the output's row … -/
theorem lhs_scores_0 (i : S256x2048.Idx) (q : dot_S256x768_S2048x768_S256x2048_1_1_0_0_n_n.contr.Idx) :
    (dot_S256x768_S2048x768_S256x2048_1_1_0_0_n_n.lhsIdx i q 0).val = (i 0).val := by
  unfold DotDims.lhsIdx
  rw [dif_neg (show ¬(0 : Fin S256x768.rank) ∈ dot_S256x768_S2048x768_S256x2048_1_1_0_0_n_n.lhsBatch by decide), dif_pos (show (0 : Fin S256x768.rank) ∈ dot_S256x768_S2048x768_S256x2048_1_1_0_0_n_n.lhsNonContracting by decide)]
  rfl
/-- … and reads the contraction coordinate on its feature axis. -/
theorem lhs_scores_1 (i : S256x2048.Idx) (q : dot_S256x768_S2048x768_S256x2048_1_1_0_0_n_n.contr.Idx) :
    (dot_S256x768_S2048x768_S256x2048_1_1_0_0_n_n.lhsIdx i q 1).val = (q ⟨0, by decide⟩).val :=
  dot_S256x768_S2048x768_S256x2048_1_1_0_0_n_n.lhsIdx_val_of_single rfl i q
/-- The score product's right operand index takes the output's column as its position … -/
theorem rhs_scores_0 (i : S256x2048.Idx) (q : dot_S256x768_S2048x768_S256x2048_1_1_0_0_n_n.contr.Idx) :
    (dot_S256x768_S2048x768_S256x2048_1_1_0_0_n_n.rhsIdx i q 0).val = (i 1).val := by
  unfold DotDims.rhsIdx
  rw [dif_neg (show ¬(0 : Fin S2048x768.rank) ∈ dot_S256x768_S2048x768_S256x2048_1_1_0_0_n_n.rhsBatch by decide), dif_pos (show (0 : Fin S2048x768.rank) ∈ dot_S256x768_S2048x768_S256x2048_1_1_0_0_n_n.rhsNonContracting by decide)]
  rfl
/-- … and reads the contraction coordinate on its feature axis too. -/
theorem rhs_scores_1 (i : S256x2048.Idx) (q : dot_S256x768_S2048x768_S256x2048_1_1_0_0_n_n.contr.Idx) :
    (dot_S256x768_S2048x768_S256x2048_1_1_0_0_n_n.rhsIdx i q 1).val = (q ⟨0, by decide⟩).val :=
  dot_S256x768_S2048x768_S256x2048_1_1_0_0_n_n.rhsIdx_val_of_single rfl i q

/-- The score product into a zero accumulator, at row `r` and column `j`: the dot product of row `r` of the left
    operand with row `j` of the right one. -/
theorem scores_apply (a : FVec Ideal S256x768 .bf16) (b : FVec Ideal S2048x768 .bf16) (r : Fin 256) (j : Fin 2048) :
    matmul (F := Ideal) dot_S256x768_S2048x768_S256x2048_1_1_0_0_n_n none a b (constant (F := Ideal) S256x2048 .f32 0x00000000#32) (ix2 r j)
      = ∑ d : Fin 768, a (ix2 r d) * b (ix2 j d) := by
  refine (Ideal.matmul_constant_zero_apply dot_S256x768_S2048x768_S256x2048_1_1_0_0_n_n none a b (ix2 r j)).trans ?_
  rw [← Equiv.sum_comp (contrEquiv1 dot_S256x768_S2048x768_S256x2048_1_1_0_0_n_n 768 rfl rfl).symm]
  refine Finset.sum_congr rfl fun k _ => ?_
  have hk := contrEquiv1_symm_val dot_S256x768_S2048x768_S256x2048_1_1_0_0_n_n 768 rfl rfl k
  have el : dot_S256x768_S2048x768_S256x2048_1_1_0_0_n_n.lhsIdx (ix2 r j) ((contrEquiv1 dot_S256x768_S2048x768_S256x2048_1_1_0_0_n_n 768 rfl rfl).symm k) = ix2 r k := funext fun x => Fin.ext (by
    match x with
    | ⟨0, _⟩ => exact lhs_scores_0 _ _
    | ⟨1, _⟩ => exact (lhs_scores_1 _ _).trans hk)
  have er : dot_S256x768_S2048x768_S256x2048_1_1_0_0_n_n.rhsIdx (ix2 r j) ((contrEquiv1 dot_S256x768_S2048x768_S256x2048_1_1_0_0_n_n 768 rfl rfl).symm k) = ix2 j k := funext fun x => Fin.ext (by
    match x with
    | ⟨0, _⟩ => exact rhs_scores_0 _ _
    | ⟨1, _⟩ => exact (rhs_scores_1 _ _).trans hk)
  rw [el, er]

/-- The context product's left operand index keeps the output's row … -/
theorem lhs_context_0 (i : S256x768.Idx) (q : dot_S256x2048_S2048x768_S256x768_1_0_0_1_n_n.contr.Idx) :
    (dot_S256x2048_S2048x768_S256x768_1_0_0_1_n_n.lhsIdx i q 0).val = (i 0).val := by
  unfold DotDims.lhsIdx
  rw [dif_neg (show ¬(0 : Fin S256x2048.rank) ∈ dot_S256x2048_S2048x768_S256x768_1_0_0_1_n_n.lhsBatch by decide), dif_pos (show (0 : Fin S256x2048.rank) ∈ dot_S256x2048_S2048x768_S256x768_1_0_0_1_n_n.lhsNonContracting by decide)]
  rfl
/-- … and reads the contraction coordinate on its key-position axis. -/
theorem lhs_context_1 (i : S256x768.Idx) (q : dot_S256x2048_S2048x768_S256x768_1_0_0_1_n_n.contr.Idx) :
    (dot_S256x2048_S2048x768_S256x768_1_0_0_1_n_n.lhsIdx i q 1).val = (q ⟨0, by decide⟩).val :=
  dot_S256x2048_S2048x768_S256x768_1_0_0_1_n_n.lhsIdx_val_of_single rfl i q
/-- The context product's right operand index reads the contraction coordinate as its position … -/
theorem rhs_context_0 (i : S256x768.Idx) (q : dot_S256x2048_S2048x768_S256x768_1_0_0_1_n_n.contr.Idx) :
    (dot_S256x2048_S2048x768_S256x768_1_0_0_1_n_n.rhsIdx i q 0).val = (q ⟨0, by decide⟩).val :=
  dot_S256x2048_S2048x768_S256x768_1_0_0_1_n_n.rhsIdx_val_of_single rfl i q
/-- … and keeps the output's column as its feature. -/
theorem rhs_context_1 (i : S256x768.Idx) (q : dot_S256x2048_S2048x768_S256x768_1_0_0_1_n_n.contr.Idx) :
    (dot_S256x2048_S2048x768_S256x768_1_0_0_1_n_n.rhsIdx i q 1).val = (i 1).val := by
  unfold DotDims.rhsIdx
  rw [dif_neg (show ¬(1 : Fin S2048x768.rank) ∈ dot_S256x2048_S2048x768_S256x768_1_0_0_1_n_n.rhsBatch by decide), dif_pos (show (1 : Fin S2048x768.rank) ∈ dot_S256x2048_S2048x768_S256x768_1_0_0_1_n_n.rhsNonContracting by decide)]
  rfl

/-- The context product into a zero accumulator, at row `r` and column `e`: row `r` of the gates against column `e` of
    the values, summed over the key positions. -/
theorem context_apply (g : FVec Ideal S256x2048 .bf16) (v : FVec Ideal S2048x768 .bf16) (r : Fin 256) (e : Fin 768) :
    matmul (F := Ideal) dot_S256x2048_S2048x768_S256x768_1_0_0_1_n_n none g v (constant (F := Ideal) S256x768 .f32 0x00000000#32) (ix2 r e)
      = ∑ j : Fin 2048, g (ix2 r j) * v (ix2 j e) := by
  refine (Ideal.matmul_constant_zero_apply dot_S256x2048_S2048x768_S256x768_1_0_0_1_n_n none g v (ix2 r e)).trans ?_
  rw [← Equiv.sum_comp (contrEquiv1 dot_S256x2048_S2048x768_S256x768_1_0_0_1_n_n 2048 rfl rfl).symm]
  refine Finset.sum_congr rfl fun k _ => ?_
  have hk := contrEquiv1_symm_val dot_S256x2048_S2048x768_S256x768_1_0_0_1_n_n 2048 rfl rfl k
  have el : dot_S256x2048_S2048x768_S256x768_1_0_0_1_n_n.lhsIdx (ix2 r e) ((contrEquiv1 dot_S256x2048_S2048x768_S256x768_1_0_0_1_n_n 2048 rfl rfl).symm k) = ix2 r k := funext fun x => Fin.ext (by
    match x with
    | ⟨0, _⟩ => exact lhs_context_0 _ _
    | ⟨1, _⟩ => exact (lhs_context_1 _ _).trans hk)
  have er : dot_S256x2048_S2048x768_S256x768_1_0_0_1_n_n.rhsIdx (ix2 r e) ((contrEquiv1 dot_S256x2048_S2048x768_S256x768_1_0_0_1_n_n 2048 rfl rfl).symm k) = ix2 k e := funext fun x => Fin.ext (by
    match x with
    | ⟨0, _⟩ => exact (rhs_context_0 _ _).trans hk
    | ⟨1, _⟩ => exact rhs_context_1 _ _)
  rw [el, er]

/-! ## The body's payload at an entry of its block -/

/-- What the body stores at row `r`, feature `e` of its one output block, from its four loaded blocks: the sum over the
    key positions `j` of the gate of (`r`, `j`) — the logistic of the query row's dot product with key row `j` where the
    mask word is not zero, of the fill value elsewhere — times the values' entry (`j`, `e`). The blocks' leading unit
    axis is dropped going in and added back coming out; the narrowing of the gates to 16 bits is the identity on
    extended reals. -/
theorem pay_apply (x0 : Vec Ideal S1x256x768 .bf16) (x1 x2 : Vec Ideal S1x2048x768 .bf16) (x3 : Vec Ideal S1x256x2048 .i32)
    (r : Fin 256) (e : Fin 768) :
    k1_pay1 (F := Ideal) x0 x1 x2 x3 (ix3 (0 : Fin 1) r e)
      = ∑ j : Fin 2048, Ideal.logistic (Scalar.select (IntOp.cmpi .ne (x3 (ix3 (0 : Fin 1) r j)) 0#32)
          (∑ d : Fin 768, x0 (ix3 (0 : Fin 1) r d) * x1 (ix3 (0 : Fin 1) j d)) GatedAttention.fill) * x2 (ix3 (0 : Fin 1) j e) := by
  unfold k1_pay1
  refine (shapeCast_ab_1ab_apply _ shapeCasts_S256x768_S1x256x768 (0 : Fin 1) r e).trans ?_
  refine (context_apply _ _ r e).trans ?_
  refine Finset.sum_congr rfl fun j _ => ?_
  refine congrArg₂ (· * ·) ?_ (shapeCast_1ab_ab_apply x2 shapeCasts_S1x2048x768_S2048x768 j e)
  show Ideal.logistic (Scalar.select (IntOp.cmpi .ne (shapeCast S256x2048 x3 shapeCasts_S1x256x2048_S256x2048 (ix2 r j)) 0#32)
      (matmul (F := Ideal) dot_S256x768_S2048x768_S256x2048_1_1_0_0_n_n none (shapeCast S256x768 x0 shapeCasts_S1x256x768_S256x768)
        (shapeCast S2048x768 x1 shapeCasts_S1x2048x768_S2048x768) (constant (F := Ideal) S256x2048 .f32 0x00000000#32) (ix2 r j))
      GatedAttention.fill) = _
  rw [shapeCast_1ab_ab_apply x3 shapeCasts_S1x256x2048_S256x2048 r j, scores_apply]
  refine congrArg (fun s => Ideal.logistic (Scalar.select _ s GatedAttention.fill)) ?_
  refine Finset.sum_congr rfl fun d _ => ?_
  rw [shapeCast_1ab_ab_apply x0 shapeCasts_S1x256x768_S256x768 r d, shapeCast_1ab_ab_apply x1 shapeCasts_S1x2048x768_S2048x768 j d]

/-! ## From the blocks to the array -/

theorem zero3 : (![0, 0, 0] : Fin 3 → Nat) = fun _ => 0 := funext fun a => by fin_cases a <;> rfl

/-- The block indices of the five windows, decided over the 64 grid points: the query, mask and output blocks sit at
    (batch, query tile, 0); the key and value blocks are the batch's whole slab, at (batch, 0, 0); the batch is below
    8 and so is the query tile. -/
theorem block_indices : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3) ∧ win1_3.index t (2 : Fin 3) = 0
    ∧ win1_4.index t (0 : Fin 3) < 8 ∧ win1_4.index t (1 : Fin 3) < 8 ∧ win1_4.index t (2 : Fin 3) = 0 :=
  (by decide +kernel : ∀ t : Fin grid1.N, _)

/-- Every (batch, query tile) pair is some grid point's output block. -/
theorem block_onto : ∀ (p : Fin 8) (q : Fin 8), ∃ t : Fin cfg1.N, win1_4.index t = ![p.val, q.val, 0] :=
  (by decide +kernel : ∀ (p : Fin 8) (q : Fin 8), ∃ t : Fin grid1.N, win1_4.index t = ![p.val, q.val, 0])

/-- The batch a grid point works on. -/
def batchOf (t : Fin cfg1.N) : Fin 8 := ⟨win1_4.index t (0 : Fin 3), (block_indices t).2.2.2.2.2.2.2.2.2.2.2.2.1⟩

/-- The query position of row `r` of the grid point's query tile. -/
def rowOf (t : Fin cfg1.N) (r : Fin 256) : Fin 2048 :=
  ⟨win1_4.index t (1 : Fin 3) * 256 + r.val, by have h := (block_indices t).2.2.2.2.2.2.2.2.2.2.2.2.2.1; have := r.isLt; omega⟩

/-- The query block at a point is rows `rowOf` of the batch's queries. -/
theorem query_block (c : Dev nD) (t : Fin cfg1.N) (r : Fin 256) (d : Fin 768) :
    (iblk1 (F := Ideal) V c 0 t : Vec Ideal S1x256x768 .bf16) (ix3 (0 : Fin 1) r d)
      = (V c main_v6_0 : S8x2048x768.Idx → EReal) (ix3 (batchOf t) (rowOf t r) d) := by
  obtain ⟨e00, e01, e02, -⟩ := block_indices t
  show V c main_v6_0 (((cfg1.win 0).blk t).view.emb (ix3 (0 : Fin 1) r d)) = V c main_v6_0 (ix3 (batchOf t) (rowOf t r) d)
  congr 1
  funext a; apply Fin.ext
  match a with
  | ⟨0, _⟩ => show win1_0.index t (0 : Fin 3) * 1 + 1 * 0 = win1_4.index t (0 : Fin 3); omega
  | ⟨1, _⟩ => show win1_0.index t (1 : Fin 3) * 256 + 1 * r.val = win1_4.index t (1 : Fin 3) * 256 + r.val; omega
  | ⟨2, _⟩ => show win1_0.index t (2 : Fin 3) * 768 + 1 * d.val = d.val; omega

/-- The key block at a point is the batch's whole slab of keys. -/
theorem key_block (c : Dev nD) (t : Fin cfg1.N) (j : Fin 2048) (d : Fin 768) :
    (iblk1 (F := Ideal) V c 1 t : Vec Ideal S1x2048x768 .bf16) (ix3 (0 : Fin 1) j d)
      = (V c main_v6_2 : S8x2048x768.Idx → EReal) (ix3 (batchOf t) j d) := by
  obtain ⟨-, -, -, e10, e11, e12, -⟩ := block_indices t
  show V c main_v6_2 (((cfg1.win 1).blk t).view.emb (ix3 (0 : Fin 1) j d)) = V c main_v6_2 (ix3 (batchOf t) j d)
  congr 1
  funext a; apply Fin.ext
  match a with
  | ⟨0, _⟩ => show win1_1.index t (0 : Fin 3) * 1 + 1 * 0 = win1_4.index t (0 : Fin 3); omega
  | ⟨1, _⟩ => show win1_1.index t (1 : Fin 3) * 2048 + 1 * j.val = j.val; omega
  | ⟨2, _⟩ => show win1_1.index t (2 : Fin 3) * 768 + 1 * d.val = d.val; omega

/-- The value block at a point is the batch's whole slab of values. -/
theorem value_block (c : Dev nD) (t : Fin cfg1.N) (j : Fin 2048) (e : Fin 768) :
    (iblk1 (F := Ideal) V c 2 t : Vec Ideal S1x2048x768 .bf16) (ix3 (0 : Fin 1) j e)
      = (V c main_v6_1 : S8x2048x768.Idx → EReal) (ix3 (batchOf t) j e) := by
  obtain ⟨-, -, -, -, -, -, e20, e21, e22, -⟩ := block_indices t
  show V c main_v6_1 (((cfg1.win 2).blk t).view.emb (ix3 (0 : Fin 1) j e)) = V c main_v6_1 (ix3 (batchOf t) j e)
  congr 1
  funext a; apply Fin.ext
  match a with
  | ⟨0, _⟩ => show win1_2.index t (0 : Fin 3) * 1 + 1 * 0 = win1_4.index t (0 : Fin 3); omega
  | ⟨1, _⟩ => show win1_2.index t (1 : Fin 3) * 2048 + 1 * j.val = j.val; omega
  | ⟨2, _⟩ => show win1_2.index t (2 : Fin 3) * 768 + 1 * e.val = e.val; omega

/-- The mask block at a point is rows `rowOf` of the batch's mask words, all key positions. -/
theorem mask_block (c : Dev nD) (t : Fin cfg1.N) (r : Fin 256) (j : Fin 2048) :
    (iblk1 (F := Ideal) V c 3 t : Vec Ideal S1x256x2048 .i32) (ix3 (0 : Fin 1) r j)
      = (V c main_v7 : S8x2048x2048.Idx → BitVec 32) (ix3 (batchOf t) (rowOf t r) j) := by
  obtain ⟨-, -, -, -, -, -, -, -, -, e30, e31, e32, -⟩ := block_indices t
  show V c main_v7 (((cfg1.win 3).blk t).view.emb (ix3 (0 : Fin 1) r j)) = V c main_v7 (ix3 (batchOf t) (rowOf t r) j)
  congr 1
  funext a; apply Fin.ext
  match a with
  | ⟨0, _⟩ => show win1_3.index t (0 : Fin 3) * 1 + 1 * 0 = win1_4.index t (0 : Fin 3); omega
  | ⟨1, _⟩ => show win1_3.index t (1 : Fin 3) * 256 + 1 * r.val = win1_4.index t (1 : Fin 3) * 256 + r.val; omega
  | ⟨2, _⟩ => show win1_3.index t (2 : Fin 3) * 2048 + 1 * j.val = j.val; omega

/-- Entry (`r`, `e`) of the output block at a point sits in the array at the batch, at query position `rowOf`, at feature `e`. -/
theorem out_position (t : Fin cfg1.N) (r : Fin 256) (e : Fin 768) :
    (((cfg1.win 4).blk t).view.emb (ix3 (0 : Fin 1) r e) : S8x2048x768.Idx) = ix3 (batchOf t) (rowOf t r) e := by
  obtain ⟨-, -, -, -, -, -, -, -, -, -, -, -, -, -, e42⟩ := block_indices t
  funext a; apply Fin.ext
  match a with
  | ⟨0, _⟩ => show win1_4.index t (0 : Fin 3) * 1 + 1 * 0 = win1_4.index t (0 : Fin 3); omega
  | ⟨1, _⟩ => show win1_4.index t (1 : Fin 3) * 256 + 1 * r.val = win1_4.index t (1 : Fin 3) * 256 + r.val; omega
  | ⟨2, _⟩ => show win1_4.index t (2 : Fin 3) * 768 + 1 * e.val = e.val; omega

/-- The context array of the region's query, key and value arrays and of its mask words compared against zero. -/
abbrev contextOf (c : Dev nD) : S8x2048x768.Idx → EReal :=
  GatedAttention.context (V c main_v6_0) (V c main_v6_2) (V c main_v6_1) (fun i => IntOp.cmpi .ne (V c main_v7 i) 0#32)

/-- The body's payload of a point's four blocks, at an entry of its output block, is the context array at that entry's
    place in the array: the payload's sum, with every block entry read where it sits in its array, is the
    specification's sum term by term. -/
theorem payload_of_blocks (c : Dev nD) (t : Fin cfg1.N) (r : Fin 256) (e : Fin 768) :
    k1_pay1 (F := Ideal) (iblk1 V c 0 t) (iblk1 V c 1 t) (iblk1 V c 2 t) (iblk1 V c 3 t) (ix3 (0 : Fin 1) r e)
      = contextOf V c (ix3 (batchOf t) (rowOf t r) e) := by
  refine (pay_apply (iblk1 V c 0 t) (iblk1 V c 1 t) (iblk1 V c 2 t) (iblk1 V c 3 t) r e).trans ?_
  refine ((GatedAttention.context_ix3 (V c main_v6_0) (V c main_v6_2) (V c main_v6_1) (fun i => IntOp.cmpi .ne (V c main_v7 i) 0#32) (batchOf t) (rowOf t r) e).trans ?_).symm
  unfold GatedAttention.contextAt GatedAttention.gateAt GatedAttention.scoreAt
  refine Finset.sum_congr rfl fun j _ => ?_
  refine congrArg₂ (· * ·) ?_ (value_block V c t j e).symm
  refine congrArg₂ (fun m s => Ideal.logistic (Scalar.select (IntOp.cmpi .ne m 0#32) s GatedAttention.fill)) (mask_block V c t r j).symm ?_
  refine Finset.sum_congr rfl fun d _ => ?_
  exact congrArg₂ (· * ·) (query_block V c t r d).symm (key_block V c t j d).symm

/-- WHAT A POINT WRITES BACK is its block of the context array. -/
theorem flushed_eq (c : Dev nD) (t : Fin cfg1.N) :
    (dat1 (F := Ideal) V c).flushed 4 t = ((cfg1.win 4).blk t).view.read (Elt Ideal) (contextOf V c) := by
  show (cfg1.win 4).cut (grid1.coords t) ((dat1 V c).after 4 t) = _
  rw [after1_4]
  unfold out1_4
  rw [View.canon_unit_zero zero3]
  simp only [View.ld_unit_zero (S := S1x256x768) zero3, View.ld_unit_zero (S := S1x2048x768) zero3, View.ld_unit_zero (S := S1x256x2048) zero3]
  funext y
  show k1_pay1 (F := Ideal) (iblk1 V c 0 t) (iblk1 V c 1 t) (iblk1 V c 2 t) (iblk1 V c 3 t) y = contextOf V c (((cfg1.win 4).blk t).view.emb y)
  obtain ⟨u, r, e, rfl⟩ : ∃ (u : Fin 1) (r : Fin 256) (e : Fin 768), y = ix3 u r e := ⟨y 0, y 1, y 2, eq_ix3 y⟩
  obtain rfl : u = 0 := Subsingleton.elim _ _
  rw [out_position]
  exact payload_of_blocks V c t r e

/-- An index of the array is in a point's output block iff each coordinate is in the block's range on its axis. -/
theorem mem_block (t : Fin cfg1.N) (i : S8x2048x768.Idx) :
    i ∈ ((cfg1.win 4).blk t).view.set ↔ ∀ a : Fin 3, win1_4.index t a * S1x256x768.size a ≤ (i a).val ∧ (i a).val < win1_4.index t a * S1x256x768.size a + S1x256x768.size a := by
  show i ∈ ((View.whole main_v8).slice (win1_4.rect t)).set ↔ _
  rw [View.set_slice_whole, Rect.mem_set_unit]
  exact Iff.rfl

/-- The output blocks cover the array: entry (`p`, `l`, `e`) is in the block of the point whose batch is `p` and whose
    query tile is `l / 256`, and every point writes its block back. -/
theorem covered (i : S8x2048x768.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 768 := (i 2).isLt
  obtain ⟨t, ht⟩ := block_onto ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_block]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 768 ≤ (i 2).val ∧ (i 2).val < win1_4.index t (2 : Fin 3) * 768 + 768; omega

/-- The context array after the region: the gated sum over all key positions, of the region's query, key and
    value arrays and of its 32-bit mask array compared against zero. -/
theorem out_array (c : Dev nD) :
    (dat1 (F := Ideal) V c).arrAt 4 cfg1.N
      = GatedAttention.context (V c main_v6_0) (V c main_v6_2) (V c main_v6_1) (fun i => IntOp.cmpi .ne (V c main_v7 i) 0#32) :=
  (dat1 (F := Ideal) V c).arrAt_eq_of_cover 4 (contextOf V c) (fun t _ => flushed_eq V c t) (fun i => covered i)

end Cert.KernelIdeal.Attn

end
-- ==== Proof.HostValues.lean ====
import proofs.«105269_j42880953483476_1_alg».proof.Proof.Gen.KernelIdeal.Frame
import proofs.«105269_j42880953483476_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Host

open Cert.KernelIdeal Cert.KernelIdeal.Gen Idealize.ShloMosaic Idealize.ShloMosaic.TcCoe Idealize.SL.Sem
open Idealize.ShloMosaic.ValueIdx
open Idealize.ShloMosaic.Pipeline (Dat)

open Idealize.ShloMosaic.StableHlo (after_cons after_nil)

variable (m : (ℓ : Loc nD τ sig) → Buf (Elt Ideal) ℓ) (ρ : Dev nD → PrngReg)

/-! ## What the projection kernel's region is entered with

Six host operations run first: each weight is transposed and each bias reshaped to a 1×768 row, into buffers of
their own. The two activation arrays are untouched. -/

theorem entry0_queries (c : Dev nD) : V1 m ρ c main_arg0 = m ((c : Thread nD τ).loc main_arg0) := by
  show StableHlo.after hostOps0 (W0 m ρ c) (Proc.devRef .tc main_arg0) = _
  after_results <;> rfl

theorem entry0_values (c : Dev nD) : V1 m ρ c main_arg1 = m ((c : Thread nD τ).loc main_arg1) := by
  show StableHlo.after hostOps0 (W0 m ρ c) (Proc.devRef .tc main_arg1) = _
  after_results <;> rfl

/-- The transposed query weight, read at (input feature, output feature). -/
theorem entry0_wq (c : Dev nD) (d e : Fin 768) :
    V1 m ρ c main_v0 (ix2 d e) = m ((c : Thread nD τ).loc main_arg3) (ix2 e d) := by
  -- the host stretch writes the transpose of the weight into this buffer
  have h : (V1 m ρ c main_v0 : S768x768.Idx → EReal)
      = transpose S768x768 [1, 0] (m ((c : Thread nD τ).loc main_arg3)) transposes_S768x768_S768x768_1_0 := by
    show StableHlo.after hostOps0 (W0 m ρ c) (Proc.devRef .tc main_v0) = _
    after_results <;> rfl
  -- and a transpose read at (d, e) is the operand at (e, d)
  refine (congrFun h (ix2 d e)).trans ?_
  exact transpose_apply _ _ _ (ix2 d e) (ix2 e d) (fun b => by
    match b with
    | ⟨0, _⟩ => rfl
    | ⟨1, _⟩ => rfl)

theorem entry0_wk (c : Dev nD) (d e : Fin 768) :
    V1 m ρ c main_v1 (ix2 d e) = m ((c : Thread nD τ).loc main_arg5) (ix2 e d) := by
  -- the host stretch writes the transpose of the weight into this buffer
  have h : (V1 m ρ c main_v1 : S768x768.Idx → EReal)
      = transpose S768x768 [1, 0] (m ((c : Thread nD τ).loc main_arg5)) transposes_S768x768_S768x768_1_0 := by
    show StableHlo.after hostOps0 (W0 m ρ c) (Proc.devRef .tc main_v1) = _
    after_results <;> rfl
  -- and a transpose read at (d, e) is the operand at (e, d)
  refine (congrFun h (ix2 d e)).trans ?_
  exact transpose_apply _ _ _ (ix2 d e) (ix2 e d) (fun b => by
    match b with
    | ⟨0, _⟩ => rfl
    | ⟨1, _⟩ => rfl)

theorem entry0_wv (c : Dev nD) (d e : Fin 768) :
    V1 m ρ c main_v2 (ix2 d e) = m ((c : Thread nD τ).loc main_arg7) (ix2 e d) := by
  -- the host stretch writes the transpose of the weight into this buffer
  have h : (V1 m ρ c main_v2 : S768x768.Idx → EReal)
      = transpose S768x768 [1, 0] (m ((c : Thread nD τ).loc main_arg7)) transposes_S768x768_S768x768_1_0 := by
    show StableHlo.after hostOps0 (W0 m ρ c) (Proc.devRef .tc main_v2) = _
    after_results <;> rfl
  -- and a transpose read at (d, e) is the operand at (e, d)
  refine (congrFun h (ix2 d e)).trans ?_
  exact transpose_apply _ _ _ (ix2 d e) (ix2 e d) (fun b => by
    match b with
    | ⟨0, _⟩ => rfl
    | ⟨1, _⟩ => rfl)

/-- The query bias as a one-row matrix. -/
theorem entry0_bq (c : Dev nD) (e : Fin 768) :
    V1 m ρ c main_v3 (ix2 (0 : Fin 1) e) = m ((c : Thread nD τ).loc main_arg4) (ix1 e) := by
  -- the host stretch writes the bias, reshaped to one row, into this buffer
  have h : (V1 m ρ c main_v3 : S1x768.Idx → EReal)
      = shapeCast S1x768 (m ((c : Thread nD τ).loc main_arg4)) shapeCasts_S768_S1x768 := by
    show StableHlo.after hostOps0 (W0 m ρ c) (Proc.devRef .tc main_v3) = _
    after_results <;> rfl
  -- entry (0, e) of the row and entry e of the vector have the same row-major position
  refine (congrFun h (ix2 (0 : Fin 1) e)).trans ?_
  exact shapeCast_apply _ _ (ix2 (0 : Fin 1) e) (ix1 e) (by
    rw [Shape.rowMajor_val_one, Shape.rowMajor_val_two]
    show e.val = (0 : Fin 1).val * 768 + e.val
    simp)

theorem entry0_bk (c : Dev nD) (e : Fin 768) :
    V1 m ρ c main_v4 (ix2 (0 : Fin 1) e) = m ((c : Thread nD τ).loc main_arg6) (ix1 e) := by
  -- the host stretch writes the bias, reshaped to one row, into this buffer
  have h : (V1 m ρ c main_v4 : S1x768.Idx → EReal)
      = shapeCast S1x768 (m ((c : Thread nD τ).loc main_arg6)) shapeCasts_S768_S1x768 := by
    show StableHlo.after hostOps0 (W0 m ρ c) (Proc.devRef .tc main_v4) = _
    after_results <;> rfl
  -- entry (0, e) of the row and entry e of the vector have the same row-major position
  refine (congrFun h (ix2 (0 : Fin 1) e)).trans ?_
  exact shapeCast_apply _ _ (ix2 (0 : Fin 1) e) (ix1 e) (by
    rw [Shape.rowMajor_val_one, Shape.rowMajor_val_two]
    show e.val = (0 : Fin 1).val * 768 + e.val
    simp)

theorem entry0_bv (c : Dev nD) (e : Fin 768) :
    V1 m ρ c main_v5 (ix2 (0 : Fin 1) e) = m ((c : Thread nD τ).loc main_arg8) (ix1 e) := by
  -- the host stretch writes the bias, reshaped to one row, into this buffer
  have h : (V1 m ρ c main_v5 : S1x768.Idx → EReal)
      = shapeCast S1x768 (m ((c : Thread nD τ).loc main_arg8)) shapeCasts_S768_S1x768 := by
    show StableHlo.after hostOps0 (W0 m ρ c) (Proc.devRef .tc main_v5) = _
    after_results <;> rfl
  -- entry (0, e) of the row and entry e of the vector have the same row-major position
  refine (congrFun h (ix2 (0 : Fin 1) e)).trans ?_
  exact shapeCast_apply _ _ (ix2 (0 : Fin 1) e) (ix1 e) (by
    rw [Shape.rowMajor_val_one, Shape.rowMajor_val_two]
    show e.val = (0 : Fin 1).val * 768 + e.val
    simp)

/-! ## What the attention kernel's region is entered with

Between the regions one host operation widens the mask to 32 bits. The three projections are what the first
region's write-backs left. -/

theorem entry1_q (c : Dev nD) : V3 m ρ c main_v6_0 = (dat0 (V1 m ρ) c).arrAt 8 cfg0.N := by
  -- the widening of the mask writes another buffer; this one is as the first region left it
  show StableHlo.after hostOps1 (W2 m ρ c) (Proc.devRef .tc main_v6_0) = _
  after_results
  exact W2_arr m ρ c 8

theorem entry1_v (c : Dev nD) : V3 m ρ c main_v6_1 = (dat0 (V1 m ρ) c).arrAt 9 cfg0.N := by
  -- the widening of the mask writes another buffer; this one is as the first region left it
  show StableHlo.after hostOps1 (W2 m ρ c) (Proc.devRef .tc main_v6_1) = _
  after_results
  exact W2_arr m ρ c 9

theorem entry1_k (c : Dev nD) : V3 m ρ c main_v6_2 = (dat0 (V1 m ρ) c).arrAt 10 cfg0.N := by
  -- the widening of the mask writes another buffer; this one is as the first region left it
  show StableHlo.after hostOps1 (W2 m ρ c) (Proc.devRef .tc main_v6_2) = _
  after_results
  exact W2_arr m ρ c 10

/-- The mask argument is read by no window of the first region and written by no host operation before it. -/
theorem mask_kept (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by
          show StableHlo.after hostOps0 (W0 m ρ c) (Proc.devRef .tc main_arg2) = _
          after_results <;> rfl
    _ = m ((c : Thread nD τ).loc main_arg2) := rfl

/-- The mask widened to 32 bits. -/
theorem entry1_mask (c : Dev nD) (i : S8x2048x2048.Idx) :
    V3 m ρ c main_v7 i = (m ((c : Thread nD τ).loc main_arg2) i).setWidth 32 := by
  have h : (V3 m ρ c main_v7 : S8x2048x2048.Idx → BitVec 32)
      = extui 32 (W2 m ρ c (Proc.devRef .tc main_arg2) : S8x2048x2048.Idx → BitVec 1) natLt_1_32 := by
    show StableHlo.after hostOps1 (W2 m ρ c) (Proc.devRef .tc main_v7) = _
    after_results <;> rfl
  refine (congrFun h i).trans ?_
  rw [extui_apply, mask_kept m ρ c]

/-! ## The result -/

theorem result_array (c : Dev nD) : W4 m ρ c (Proc.devRef .tc main_v8) = (dat1 (V3 m ρ) c).arrAt 4 cfg1.N :=
  W4_arr m ρ c 4

end Cert.KernelIdeal.Host

end
-- ==== Proof.KernelValue.lean ====
import proofs.«105269_j42880953483476_1_alg».proof.Proof.Gen.KernelIdeal.Frame
import proofs.«105269_j42880953483476_1_alg».proof.Proof.Spec
import proofs.«105269_j42880953483476_1_alg».proof.Proof.ProjArrays
import proofs.«105269_j42880953483476_1_alg».proof.Proof.ContextArray
import proofs.«105269_j42880953483476_1_alg».proof.Proof.HostValues
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kernel's result array, at the contents the last region leaves, is the layer of the launch memory's nine arguments. -/
theorem result_is_layer (c : Dev nD) :
    W4 m ρ c (Proc.devRef .tc main_v8)
      = GatedAttention.layer (m ((c : Thread nD τ).loc main_arg0)) (m ((c : Thread nD τ).loc main_arg1)) (m ((c : Thread nD τ).loc main_arg2))
          (fun d e => m ((c : Thread nD τ).loc main_arg3) (ix2 e d)) (fun e => m ((c : Thread nD τ).loc main_arg4) (ix1 e))
          (fun d e => m ((c : Thread nD τ).loc main_arg5) (ix2 e d)) (fun e => m ((c : Thread nD τ).loc main_arg6) (ix1 e))
          (fun d e => m ((c : Thread nD τ).loc main_arg7) (ix2 e d)) (fun e => m ((c : Thread nD τ).loc main_arg8) (ix1 e)) := by
  -- the last region's array, of the arrays it was entered with
  rw [Host.result_array m ρ c, Attn.out_array (V3 m ρ) c]
  -- those are the three projections the first region left, and the mask widened
  rw [Host.entry1_q m ρ c, Host.entry1_k m ρ c, Host.entry1_v m ρ c,
    Proj.q_array (V1 m ρ) c, Proj.k_array (V1 m ρ) c, Proj.v_array (V1 m ρ) c]
  -- and the first region was entered with the arguments, the weights transposed and the biases as rows
  rw [Host.entry0_queries m ρ c, Host.entry0_values m ρ c]
  have hwq : (fun d e => V1 m ρ c main_v0 (ix2 d e)) = fun (d e : Fin 768) => m ((c : Thread nD τ).loc main_arg3) (ix2 e d) :=
    funext fun d => funext fun e => Host.entry0_wq m ρ c d e
  have hwk : (fun d e => V1 m ρ c main_v1 (ix2 d e)) = fun (d e : Fin 768) => m ((c : Thread nD τ).loc main_arg5) (ix2 e d) :=
    funext fun d => funext fun e => Host.entry0_wk m ρ c d e
  have hwv : (fun d e => V1 m ρ c main_v2 (ix2 d e)) = fun (d e : Fin 768) => m ((c : Thread nD τ).loc main_arg7) (ix2 e d) :=
    funext fun d => funext fun e => Host.entry0_wv m ρ c d e
  have hbq : (fun e => V1 m ρ c main_v3 (ix2 (0 : Fin 1) e)) = fun (e : Fin 768) => m ((c : Thread nD τ).loc main_arg4) (ix1 e) :=
    funext fun e => Host.entry0_bq m ρ c e
  have hbk : (fun e => V1 m ρ c main_v4 (ix2 (0 : Fin 1) e)) = fun (e : Fin 768) => m ((c : Thread nD τ).loc main_arg6) (ix1 e) :=
    funext fun e => Host.entry0_bk m ρ c e
  have hbv : (fun e => V1 m ρ c main_v5 (ix2 (0 : Fin 1) e)) = fun (e : Fin 768) => m ((c : Thread nD τ).loc main_arg8) (ix1 e) :=
    funext fun e => Host.entry0_bv m ρ c e
  -- a mask bit widened and compared against zero is the bit
  have hmask : (fun i => IntOp.cmpi .ne (V3 m ρ c main_v7 i) 0#32) = m ((c : Thread nD τ).loc main_arg2) :=
    funext fun i => by rw [Host.entry1_mask m ρ c i]; exact GatedAttention.ne_zero_of_widened _
  rw [hwq, hwk, hwv, hbq, hbk, hbv]
  unfold GatedAttention.layer
  exact congrArg (GatedAttention.context _ _ _) hmask

end Cert.KernelIdeal.Whole

end
-- ==== Proof.Reference.lean ====
import proofs.«105269_j42880953483476_1_alg».proof.Proof.Gen.ReferenceIdeal.Read
import proofs.«105269_j42880953483476_1_alg».proof.Proof.Spec
import Idealize.ShloMosaic.Lib.IdealHost

noncomputable section

open scoped BigOperators

namespace Cert.ReferenceIdeal.Layer

open Cert.ReferenceIdeal Cert.ReferenceIdeal.Gen Cert.ReferenceIdeal.Read Idealize.ShloMosaic Idealize.ShloMosaic.TcCoe Idealize.SL.Sem
open Idealize.ShloMosaic.ValueIdx

/-! ## Index equations

Each composed index function of the generated stages, read at an index given by its coordinates, is the index with the
coordinates one expects: a projection's left operand keeps batch and position and takes the summed feature, its weight
is read at (output feature, summed feature), a bias at the output feature; the score contracts the feature axis of two
positions of one batch; the last product contracts the key position. -/

section IndexEquations
variable (p : Fin 8) (l j : Fin 2048) (e k : Fin 768)

theorem lidx_v0 : lidx_main_v0 (ix3 p l e) k = ix3 p l k :=
  funext fun a => Fin.ext (by match a with | ⟨0, _⟩ => rfl | ⟨1, _⟩ => rfl | ⟨2, _⟩ => rfl)
theorem ridx_v0 : ridx_main_v0 (ix3 p l e) k = ix2 e k :=
  funext fun a => Fin.ext (by match a with | ⟨0, _⟩ => rfl | ⟨1, _⟩ => rfl)
theorem bidx_v2 : idx_main_v1 (idx_main_v2 (ix3 p l e)) = ix1 e :=
  funext fun a => Fin.ext (by match a with | ⟨0, _⟩ => rfl)

theorem lidx_v4 : lidx_main_v4 (ix3 p l e) k = ix3 p l k :=
  funext fun a => Fin.ext (by match a with | ⟨0, _⟩ => rfl | ⟨1, _⟩ => rfl | ⟨2, _⟩ => rfl)
theorem ridx_v4 : ridx_main_v4 (ix3 p l e) k = ix2 e k :=
  funext fun a => Fin.ext (by match a with | ⟨0, _⟩ => rfl | ⟨1, _⟩ => rfl)
theorem bidx_v6 : idx_main_v5 (idx_main_v6 (ix3 p l e)) = ix1 e :=
  funext fun a => Fin.ext (by match a with | ⟨0, _⟩ => rfl)

theorem lidx_v8 : lidx_main_v8 (ix3 p l e) k = ix3 p l k :=
  funext fun a => Fin.ext (by match a with | ⟨0, _⟩ => rfl | ⟨1, _⟩ => rfl | ⟨2, _⟩ => rfl)
theorem ridx_v8 : ridx_main_v8 (ix3 p l e) k = ix2 e k :=
  funext fun a => Fin.ext (by match a with | ⟨0, _⟩ => rfl | ⟨1, _⟩ => rfl)
theorem bidx_v10 : idx_main_v9 (idx_main_v10 (ix3 p l e)) = ix1 e :=
  funext fun a => Fin.ext (by match a with | ⟨0, _⟩ => rfl)

theorem lidx_v12 : lidx_main_v12 (ix3 p l j) k = ix3 p l k :=
  funext fun a => Fin.ext (by match a with | ⟨0, _⟩ => rfl | ⟨1, _⟩ => rfl | ⟨2, _⟩ => rfl)
theorem ridx_v12 : ridx_main_v12 (ix3 p l j) k = ix3 p j k :=
  funext fun a => Fin.ext (by match a with | ⟨0, _⟩ => rfl | ⟨1, _⟩ => rfl | ⟨2, _⟩ => rfl)

theorem lidx_v20 : lidx_main_v20 (ix3 p l e) j = ix3 p l j :=
  funext fun a => Fin.ext (by match a with | ⟨0, _⟩ => rfl | ⟨1, _⟩ => rfl | ⟨2, _⟩ => rfl)
theorem ridx_v20 : ridx_main_v20 (ix3 p l e) j = ix3 p j e :=
  funext fun a => Fin.ext (by match a with | ⟨0, _⟩ => rfl | ⟨1, _⟩ => rfl | ⟨2, _⟩ => rfl)

end IndexEquations

/-! ## The three projections -/

/-- The query projection: the first `dot_general` plus the broadcast bias is `proj` of the queries with the weight
    read as (input feature, output feature). -/
theorem v3_is_proj (x0 : (⟨S8x2048x768, .f32⟩ : BufTy).Contents (Elt Ideal))
    (x3 : (⟨S768x768, .f32⟩ : BufTy).Contents (Elt Ideal)) (x4 : (⟨S768, .f32⟩ : BufTy).Contents (Elt Ideal)) :
    val_main_v3 (F := Ideal) x0 x3 x4 = GatedAttention.proj x0 (fun d e => x3 (ix2 e d)) (fun e => x4 (ix1 e)) := by
  funext i
  obtain ⟨p, l, e, rfl⟩ : ∃ (p : Fin 8) (l : Fin 2048) (e : Fin 768), i = ix3 p l e := ⟨i 0, i 1, i 2, eq_ix3 i⟩
  rw [GatedAttention.proj_ix3, val_main_v3_apply, val_main_v0_apply, val_main_v2_apply, val_main_v1_apply]
  simp only [lidx_v0, ridx_v0, bidx_v2, Ideal.addf_def]
  -- what is left is the sum `projAt` is defined as
  rw [GatedAttention.projAt]

/-- The value projection. -/
theorem v7_is_proj (x1 : (⟨S8x2048x768, .f32⟩ : BufTy).Contents (Elt Ideal))
    (x7 : (⟨S768x768, .f32⟩ : BufTy).Contents (Elt Ideal)) (x8 : (⟨S768, .f32⟩ : BufTy).Contents (Elt Ideal)) :
    val_main_v7 (F := Ideal) x1 x7 x8 = GatedAttention.proj x1 (fun d e => x7 (ix2 e d)) (fun e => x8 (ix1 e)) := by
  funext i
  obtain ⟨p, l, e, rfl⟩ : ∃ (p : Fin 8) (l : Fin 2048) (e : Fin 768), i = ix3 p l e := ⟨i 0, i 1, i 2, eq_ix3 i⟩
  rw [GatedAttention.proj_ix3, val_main_v7_apply, val_main_v4_apply, val_main_v6_apply, val_main_v5_apply]
  simp only [lidx_v4, ridx_v4, bidx_v6, Ideal.addf_def]
  rw [GatedAttention.projAt]

/-- The key projection, of the already projected values (kept as the stage, not unfolded). -/
theorem v11_is_proj (x1 : (⟨S8x2048x768, .f32⟩ : BufTy).Contents (Elt Ideal))
    (x5 : (⟨S768x768, .f32⟩ : BufTy).Contents (Elt Ideal)) (x6 : (⟨S768, .f32⟩ : BufTy).Contents (Elt Ideal))
    (x7 : (⟨S768x768, .f32⟩ : BufTy).Contents (Elt Ideal)) (x8 : (⟨S768, .f32⟩ : BufTy).Contents (Elt Ideal)) :
    val_main_v11 (F := Ideal) x1 x5 x6 x7 x8
      = GatedAttention.proj (val_main_v7 (F := Ideal) x1 x7 x8) (fun d e => x5 (ix2 e d)) (fun e => x6 (ix1 e)) := by
  funext i
  obtain ⟨p, l, e, rfl⟩ : ∃ (p : Fin 8) (l : Fin 2048) (e : Fin 768), i = ix3 p l e := ⟨i 0, i 1, i 2, eq_ix3 i⟩
  rw [GatedAttention.proj_ix3, val_main_v11_apply, val_main_v8_apply, val_main_v10_apply, val_main_v9_apply]
  simp only [lidx_v8, ridx_v8, bidx_v10, Ideal.addf_def]
  rw [GatedAttention.projAt]

/-! ## The gate -/

/-- The gate at (batch, query position, key position): the score is the contraction of the two projected rows, the
    select keeps it where the mask bit is set and puts the fill value elsewhere, and
    `1 / (1 + exp (-x))` is the logistic function. The projections stay as the stages. -/
theorem v19_is_gate (x0 x1 : (⟨S8x2048x768, .f32⟩ : BufTy).Contents (Elt Ideal)) (x2 : (⟨S8x2048x2048, .i1⟩ : BufTy).Contents (Elt Ideal))
    (x3 : (⟨S768x768, .f32⟩ : BufTy).Contents (Elt Ideal)) (x4 : (⟨S768, .f32⟩ : BufTy).Contents (Elt Ideal))
    (x5 : (⟨S768x768, .f32⟩ : BufTy).Contents (Elt Ideal)) (x6 : (⟨S768, .f32⟩ : BufTy).Contents (Elt Ideal))
    (x7 : (⟨S768x768, .f32⟩ : BufTy).Contents (Elt Ideal)) (x8 : (⟨S768, .f32⟩ : BufTy).Contents (Elt Ideal))
    (p : Fin 8) (l j : Fin 2048) :
    val_main_v19 (F := Ideal) x0 x1 x2 x3 x4 x5 x6 x7 x8 (ix3 p l j)
      = GatedAttention.gateAt (val_main_v3 (F := Ideal) x0 x3 x4) (val_main_v11 (F := Ideal) x1 x5 x6 x7 x8) x2 p l j := by
  rw [val_main_v19_apply, val_main_v18_apply, val_main_cst_1_apply, val_main_v17_apply, val_main_v16_apply,
    val_main_cst_0_apply, val_main_v15_apply, val_main_v14_apply, val_main_v13_apply, val_main_v12_apply,
    val_main_call0_v0_apply, val_main_cst_apply]
  simp only [lidx_v12, ridx_v12, Ideal.hostDivf_def, Ideal.addf_def, Ideal.hostUnary_exp_def, Ideal.hostNegf_def,
    Ideal.negf_def, Ideal.ofBits_def, Ideal.ofBits_one_f32]
  -- the gate is the logistic function of the selected score, and the logistic function is `1 / (1 + exp (-x))`
  rw [GatedAttention.gateAt, GatedAttention.scoreAt, Ideal.logistic]

/-- The reference's result, as a function of its nine arguments, is the layer: each `dot_general` is the sum the
    layer spells (the weights contracted on their second axis, so read as "output feature, input feature"), each bias
    is broadcast along batch and position, the select keeps the score where the mask bit is set, and
    `1 / (1 + exp (-x))` is the logistic function. -/
theorem result_is_layer (x0 x1 : (⟨S8x2048x768, .f32⟩ : BufTy).Contents (Elt Ideal)) (x2 : (⟨S8x2048x2048, .i1⟩ : BufTy).Contents (Elt Ideal))
    (x3 : (⟨S768x768, .f32⟩ : BufTy).Contents (Elt Ideal)) (x4 : (⟨S768, .f32⟩ : BufTy).Contents (Elt Ideal))
    (x5 : (⟨S768x768, .f32⟩ : BufTy).Contents (Elt Ideal)) (x6 : (⟨S768, .f32⟩ : BufTy).Contents (Elt Ideal))
    (x7 : (⟨S768x768, .f32⟩ : BufTy).Contents (Elt Ideal)) (x8 : (⟨S768, .f32⟩ : BufTy).Contents (Elt Ideal)) :
    val_main_v20 (F := Ideal) x0 x1 x2 x3 x4 x5 x6 x7 x8
      = GatedAttention.layer x0 x1 x2 (fun d e => x3 (ix2 e d)) (fun e => x4 (ix1 e))
          (fun d e => x5 (ix2 e d)) (fun e => x6 (ix1 e)) (fun d e => x7 (ix2 e d)) (fun e => x8 (ix1 e)) := by
  funext i
  obtain ⟨p, l, e, rfl⟩ : ∃ (p : Fin 8) (l : Fin 2048) (e : Fin 768), i = ix3 p l e := ⟨i 0, i 1, i 2, eq_ix3 i⟩
  -- the last product at (p, l, e): the sum over the key position of the gate times the values' column e
  rw [val_main_v20_apply]
  simp only [lidx_v20, ridx_v20, v19_is_gate]
  -- the three projected arrays are the layer's
  rw [v11_is_proj, v3_is_proj, v7_is_proj]
  -- the layer is the context of these three arrays, and the context at (p, l, e) is this sum
  rw [GatedAttention.layer, GatedAttention.context_ix3, GatedAttention.contextAt]

end Cert.ReferenceIdeal.Layer

end
-- ==== Proof.lean ====
/-
  A linear-attention layer with a sigmoid gate, in two kernels, against its plain reference.

  Both programs take queries and values of shape [8, 2048, 768], a boolean mask [8, 2048, 2048] and three affine maps
  (Wq, bq), (Wk, bk), (Wv, bv) on the 768 features, and compute, over the extended reals,
      Q = queries · Wqᵀ + bq,   V = values · Wvᵀ + bv,   K = V · Wkᵀ + bk        (the keys are projected from the
                                                                                   already projected values)
      out(p, l, e) = Σ_j logistic (if mask(p, l, j) then Σ_d Q(p, l, d) · K(p, j, d) else -1e9) · V(p, j, e).
  The first kernel computes the three projections tile by tile (256 positions at a time, the weights transposed and
  the biases reshaped to rows on the host beforehand); the second, per tile of 256 query positions, the scores
  against ALL key positions of the batch, the gate and the gated sum — a sigmoid gate needs no normalisation over the
  keys, so no running maximum or sum is carried from tile to tile. Changes of float format are the identity on the
  extended reals, a matrix product into a zero accumulator is the plain sum of products, and the kernel's one
  logistic operation is the reference's 1 / (1 + exp (-x)); the -1e9 that fills masked scores is the same f32 word in
  both programs. So both sides are the SAME extended-real term, sum for sum and product for product (only the
  weights are read through a transpose, and the arrays through their tiles): no sum is regrouped across an infinity
  and nothing is distributed, and the finiteness of the inputs is never used.

  The specification is Proof/Spec.lean (`GatedAttention.layer`). Kernel side: Proof/ProjArrays.lean and
  Proof/ContextArray.lean read each region's output arrays as whole-array functions of the region's entry contents;
  Proof/HostValues.lean reads the host operations between them; Proof/KernelValue.lean composes them; Proof/KernelRun.lean
  is the program's run with the result array named. Reference side: Proof/Reference.lean reads the reference's
  operations, one at a time, as the same function.
-/
import proofs.«105269_j42880953483476_1_alg».proof.Defs
import proofs.«105269_j42880953483476_1_alg».proof.Proof.Gen.Kernel
import proofs.«105269_j42880953483476_1_alg».proof.Proof.Gen.Kernel.Frame
import proofs.«105269_j42880953483476_1_alg».proof.Proof.Gen.KernelIdeal
import proofs.«105269_j42880953483476_1_alg».proof.Proof.Gen.KernelIdeal.Frame
import proofs.«105269_j42880953483476_1_alg».proof.Proof.Gen.ReferenceIdeal
import proofs.«105269_j42880953483476_1_alg».proof.Proof.Gen.ReferenceIdeal.Run
import proofs.«105269_j42880953483476_1_alg».proof.Proof.Gen.ReferenceIdeal.Read
import proofs.«105269_j42880953483476_1_alg».proof.Proof.Gen.Pre_finite_inputs
import proofs.«105269_j42880953483476_1_alg».proof.Proof.Spec
import proofs.«105269_j42880953483476_1_alg».proof.Proof.KernelRun
import proofs.«105269_j42880953483476_1_alg».proof.Proof.KernelValue
import proofs.«105269_j42880953483476_1_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of the nine arguments in their result array. -/
theorem algebraic : Cert.algebraic_KernelIdeal_ReferenceIdeal := by
  intro m ρ m' ρ' _ hagree
  refine ⟨fun c => GatedAttention.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (fun d e => (m ((c.tc : Thread Cert.KernelIdeal.nD Cert.KernelIdeal.τ).loc Cert.KernelIdeal.main_arg3)) (ix2 e d)) (fun e => (m ((c.tc : Thread Cert.KernelIdeal.nD Cert.KernelIdeal.τ).loc Cert.KernelIdeal.main_arg4)) (ix1 e))
      (fun d e => (m ((c.tc : Thread Cert.KernelIdeal.nD Cert.KernelIdeal.τ).loc Cert.KernelIdeal.main_arg5)) (ix2 e d)) (fun e => (m ((c.tc : Thread Cert.KernelIdeal.nD Cert.KernelIdeal.τ).loc Cert.KernelIdeal.main_arg6)) (ix1 e))
      (fun d e => (m ((c.tc : Thread Cert.KernelIdeal.nD Cert.KernelIdeal.τ).loc Cert.KernelIdeal.main_arg7)) (ix2 e d)) (fun e => (m ((c.tc : Thread Cert.KernelIdeal.nD Cert.KernelIdeal.τ).loc Cert.KernelIdeal.main_arg8)) (ix1 e)), ?_, ?_⟩
  · -- the kernel: its run leaves the result at the last region's contents, which are the layer
    exact (θ_run Cert.KernelIdeal.defs _ _).mono
      (fun r h c => ⟨(h c).1.trans (Cert.KernelIdeal.Whole.result_is_layer m ρ c), (h c).2⟩)
      (Cert.KernelIdeal.GenRun.run_result (F := Ideal) m ρ)
  · -- the reference: its run leaves the composed term of its operations, which is the layer of ITS arguments,
    -- and those agree with the kernel's
    refine (θ_run Cert.ReferenceIdeal.defs _ _).mono (fun _ h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v20_eq, Cert.ReferenceIdeal.Layer.result_is_layer,
      a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
